-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x50257 : Shape := ⟨3, ![2, 2048, 50257]⟩
abbrev S2x2048 : Shape := ⟨2, ![2, 2048]⟩
abbrev S_ : Shape := ⟨0, ![]⟩

class Facts : Prop where
  bcast_S_S2x2048x50257 : S_.BroadcastsInDim S2x2048x50257 (![] : Fin 0 → Fin S2x2048x50257.rank)
  reducesTo_S2x2048x50257_S_d0_1_2 : S2x2048x50257.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S2x2048x50257 .f32) (main_arg1 : IVec S2x2048 32) : IVec S_ 1 :=
  let main_v0 : FVec F S2x2048x50257 .f32 := Host.absf main_arg0
  let main_cst : FVec F S_ .f32 := constant S_ .f32 0x7F800000#32
  let main_v1 : FVec F S2x2048x50257 .f32 := broadcastInDim S2x2048x50257 ![] bcast_S_S2x2048x50257 main_cst
  let main_v2 : IVec S2x2048x50257 1 := cmpf .olt main_v0 main_v1
  let main_c : IVec S_ 1 := constantI S_ 1 1#1
  let main_v3 : IVec S_ 1 := (fun x v => Host.reduce IntOp.andi x v reducesTo_S2x2048x50257_S_d0_1_2 h_S_) main_v2 main_c
  let main_c_0 : IVec S_ 32 := constantI S_ 32 4294967295#32
  let main_v4 : IVec S2x2048 32 := broadcastInDim S2x2048 ![] bcast_S_S2x2048 main_c_0
  let main_v5 : IVec S2x2048 1 := cmpi .sge main_arg1 main_v4
  let main_c_1 : IVec S_ 32 := constantI S_ 32 50257#32
  let main_v6 : IVec S2x2048 32 := broadcastInDim S2x2048 ![] bcast_S_S2x2048 main_c_1
  let main_v7 : IVec S2x2048 1 := cmpi .slt main_arg1 main_v6
  let main_v8 : IVec S2x2048 1 := andi main_v5 main_v7
  let main_c_2 : IVec S_ 1 := constantI S_ 1 1#1
  let main_v9 : IVec S_ 1 := (fun x v => Host.reduce IntOp.andi x v reducesTo_S2x2048_S_d0_1 h_S_) main_v8 main_c_2
  let main_v10 : IVec S_ 1 := andi main_v3 main_v9
  main_v10
-- ==== Kernel.lean ====
abbrev S2x2048x50257 : Shape := ⟨3, ![2, 2048, 50257]⟩
abbrev S2x2048 : Shape := ⟨2, ![2, 2048]⟩
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S50257 : Shape := ⟨1, ![50257]⟩
abbrev S1x50257 : Shape := ⟨2, ![1, 50257]⟩
abbrev S32x50257 : Shape := ⟨2, ![32, 50257]⟩
abbrev S32x1 : Shape := ⟨2, ![32, 1]⟩
abbrev S32 : Shape := ⟨1, ![32]⟩

abbrev nBuf : Space → Nat
  | .hbm => 20
  | .vmem => 7
  | .smem => 0
  | _ => 0

abbrev bufTy : (tb : Table) → Fin (tcTables nBuf tb) → BufTy
  | .hbm, ⟨0, _⟩ => ⟨S2x2048x50257, .f32⟩
  | .hbm, ⟨1, _⟩ => ⟨S2x2048, .i32⟩
  | .hbm, ⟨2, _⟩ => ⟨S4096x50257, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S4096x1, .i32⟩
  | .hbm, ⟨14, _⟩ => ⟨S50257, .i32⟩
  | .hbm, ⟨15, _⟩ => ⟨S1x50257, .i32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .i32⟩
  | .local _ .vmem, ⟨3, _⟩ => ⟨S32x1, .i32⟩
  | .local _ .vmem, ⟨4, _⟩ => ⟨S1x50257, .i32⟩
  | .local _ .vmem, ⟨5, _⟩ => ⟨S32x1, .f32⟩
  | .local _ .vmem, ⟨6, _⟩ => ⟨S32x1, .f32⟩
  | _, _ => ⟨S2x2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x50257 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x2048x50257_S4096x50257 : S2x2048x50257.ShapeCasts S4096x50257
  shapeCasts_S2x2048_S4096 : S2x2048.ShapeCasts S4096
  bcast_S_S4096 : S_.BroadcastsInDim S4096 (![] : Fin 0 → Fin S4096.rank)
  natLt_1_32 : 1 < 32
  reducesTo_S4096_S_d0 : S4096.ReducesTo [0] S_
  h_S_ : 0 < S_.numel
  shapeCasts_S4096_S4096x1 : S4096.ShapeCasts S4096x1
  shapeCasts_S50257_S1x50257 : S50257.ShapeCasts S1x50257
  inb_S32x50257_S32x50257_0_0 : ∀ a, (![0, 0] : Fin 2 → Nat) a + S32x50257.size a ≤ S32x50257.size a
  h_S32x50257 : 0 < S32x50257.numel
  shapeCasts_S32x50257_S32x50257 : S32x50257.ShapeCasts S32x50257
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x50257_S1x50257_0_0 : ∀ a, (![0, 0] : Fin 2 → Nat) a + S1x50257.size a ≤ S1x50257.size a
  h_S1x50257 : 0 < S1x50257.numel
  shapeCasts_S1x50257_S1x50257 : S1x50257.ShapeCasts S1x50257
  broadcasts_S1x50257_S32x50257 : S1x50257.Broadcasts S32x50257
  broadcasts_S32x1_S32x50257 : S32x1.Broadcasts S32x50257
  reduces_S32x50257_S32 : S32x50257.Reduces [1] S32
  shapeCasts_S32_S32x1 : S32.ShapeCasts S32x1
  reducesTo_S4096x1_S_d0_1 : S4096x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .i32 = 32 ∨ (Rect.block (s := S4096x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50257.size a ≤ S1x50257.size a
  hwx0_2 : ∀ i : grid0.Coords, EltTy.bits .i32 = 32 ∨ (Rect.block (s := S1x50257) S1x50257.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S4096x1.size a
  hwx0_3 : ∀ i : grid0.Coords, EltTy.bits .f32 = 32 ∨ (Rect.block (s := S4096x1) S32x1.size (cc0_transform_3 i) (hinb0_3 i)).WholeWords (EltTy.packing .f32)

variable [Facts₀]

abbrev win0_0 : Pipeline.Window sig grid0 :=
  Pipeline.Window.ofSpec (Memref.whole main_v0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x50257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x50257 : Shape := ⟨3, ![2, 2048, 50257]⟩
abbrev S2x2048 : Shape := ⟨2, ![2, 2048]⟩
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S50257 : Shape := ⟨1, ![50257]⟩
abbrev S1x50257 : Shape := ⟨2, ![1, 50257]⟩

abbrev nBuf : Space → Nat
  | .hbm => 131
  | .vmem => 0
  | .smem => 0
  | _ => 0

abbrev hbmTy0_0 (i : Nat) : BufTy := match i % 128 with
  | 0 => ⟨S2x2048x50257, .f32⟩
  | 1 => ⟨S2x2048, .i32⟩
  | 2 => ⟨S4096x50257, .f32⟩
  | 3 => ⟨S4096, .i32⟩
  | 4 => ⟨S_, .i32⟩
  | 5 => ⟨S4096, .i32⟩
  | 6 => ⟨S4096, .i1⟩
  | 7 => ⟨S_, .i32⟩
  | 8 => ⟨S_, .i32⟩
  | 9 => ⟨S4096, .i32⟩
  | 10 => ⟨S4096, .i32⟩
  | 11 => ⟨S4096, .i32⟩
  | 12 => ⟨S_, .i32⟩
  | 13 => ⟨S_, .i32⟩
  | 14 => ⟨S_, .i32⟩
  | 15 => ⟨S_, .i32⟩
  | 16 => ⟨S_, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096x50257, .f32⟩
  | 23 => ⟨S4096x50257, .f32⟩
  | 24 => ⟨S4096x50257, .f32⟩
  | 25 => ⟨S_, .f32⟩
  | 26 => ⟨S4096, .f32⟩
  | 27 => ⟨S4096x1, .f32⟩
  | 28 => ⟨S4096x1, .f32⟩
  | 29 => ⟨S4096x50257, .f32⟩
  | 30 => ⟨S4096x50257, .f32⟩
  | 31 => ⟨S4096x1, .i32⟩
  | 32 => ⟨S_, .i32⟩
  | 33 => ⟨S4096x1, .i32⟩
  | 34 => ⟨S4096x1, .i1⟩
  | 35 => ⟨S_, .i32⟩
  | 36 => ⟨S4096x1, .i32⟩
  | 37 => ⟨S4096x1, .i32⟩
  | 38 => ⟨S4096x1, .i32⟩
  | 39 => ⟨S4096x1x1, .i32⟩
  | 40 => ⟨S1, .i32⟩
  | 41 => ⟨S_, .i32⟩
  | 42 => ⟨S4096x1x1, .i32⟩
  | 43 => ⟨S4096x1x1, .i1⟩
  | 44 => ⟨S1x1x1, .i32⟩
  | 45 => ⟨S4096x1x1, .i32⟩
  | 46 => ⟨S4096x1x1, .i1⟩
  | 47 => ⟨S4096x1x1, .i1⟩
  | 48 => ⟨S_, .i1⟩
  | 49 => ⟨S4096x1, .i1⟩
  | 50 => ⟨S4096x1, .f32⟩
  | 51 => ⟨S_, .f32⟩
  | 52 => ⟨S4096x1, .f32⟩
  | 53 => ⟨S4096x1, .f32⟩
  | 54 => ⟨S4096, .f32⟩
  | 55 => ⟨S4096, .f32⟩
  | 56 => ⟨S_, .f32⟩
  | 57 => ⟨S_, .f32⟩
  | 58 => ⟨S4096, .f32⟩
  | 59 => ⟨S4096, .f32⟩
  | 60 => ⟨S_, .f32⟩
  | 61 => ⟨S_, .f32⟩
  | 62 => ⟨S_, .f32⟩
  | 63 => ⟨S_, .f32⟩
  | 64 => ⟨S4096x1, .i32⟩
  | 65 => ⟨S_, .i32⟩
  | 66 => ⟨S4096x1, .i32⟩
  | 67 => ⟨S4096x1, .i1⟩
  | 68 => ⟨S_, .i32⟩
  | 69 => ⟨S4096x1, .i32⟩
  | 70 => ⟨S4096x1, .i32⟩
  | 71 => ⟨S4096x1, .i32⟩
  | 72 => ⟨S4096x1x1, .i32⟩
  | 73 => ⟨S1, .i32⟩
  | 74 => ⟨S_, .i32⟩
  | 75 => ⟨S4096x1x1, .i32⟩
  | 76 => ⟨S4096x1x1, .i1⟩
  | 77 => ⟨S1x1x1, .i32⟩
  | 78 => ⟨S4096x1x1, .i32⟩
  | 79 => ⟨S4096x1x1, .i1⟩
  | 80 => ⟨S4096x1x1, .i1⟩
  | 81 => ⟨S_, .i1⟩
  | 82 => ⟨S4096x1, .i1⟩
  | 83 => ⟨S4096x1, .f32⟩
  | 84 => ⟨S_, .f32⟩
  | 85 => ⟨S4096x1, .f32⟩
  | 86 => ⟨S4096x1, .f32⟩
  | 87 => ⟨S4096, .f32⟩
  | 88 => ⟨S_, .f32⟩
  | 89 => ⟨S4096, .f32⟩
  | 90 => ⟨S4096, .f32⟩
  | 91 => ⟨S4096, .f32⟩
  | 92 => ⟨S50257, .i32⟩
  | 93 => ⟨S1x50257, .i32⟩
  | 94 => ⟨S4096x1, .i32⟩
  | 95 => ⟨S4096x50257, .i32⟩
  | 96 => ⟨S4096x50257, .i32⟩
  | 97 => ⟨S4096x50257, .i1⟩
  | 98 => ⟨S_, .f32⟩
  | 99 => ⟨S_, .f32⟩
  | 100 => ⟨S4096x50257, .f32⟩
  | 101 => ⟨S4096x50257, .f32⟩
  | 102 => ⟨S_, .f32⟩
  | 103 => ⟨S4096, .f32⟩
  | 104 => ⟨S4096, .f32⟩
  | 105 => ⟨S_, .f32⟩
  | 106 => ⟨S4096, .f32⟩
  | 107 => ⟨S4096, .f32⟩
  | 108 => ⟨S4096, .f32⟩
  | 109 => ⟨S4096, .f32⟩
  | 110 => ⟨S4096, .i1⟩
  | 111 => ⟨S4096, .f32⟩
  | 112 => ⟨S4096, .f32⟩
  | 113 => ⟨S4096, .f32⟩
  | 114 => ⟨S4096, .f32⟩
  | 115 => ⟨S4096, .f32⟩
  | 116 => ⟨S4096, .f32⟩
  | 117 => ⟨S4096, .f32⟩
  | 118 => ⟨S4096, .f32⟩
  | 119 => ⟨S4096, .f32⟩
  | 120 => ⟨S_, .f32⟩
  | 121 => ⟨S_, .f32⟩
  | 122 => ⟨S4096, .f32⟩
  | 123 => ⟨S4096, .f32⟩
  | 124 => ⟨S_, .f32⟩
  | 125 => ⟨S_, .f32⟩
  | 126 => ⟨S_, .f32⟩
  | 127 => ⟨S_, .f32⟩
  | _ => ⟨S2x2048x50257, .f32⟩

abbrev hbmTy0_1 (i : Nat) : BufTy := match i % 128 with
  | 0 => ⟨S_, .f32⟩
  | 1 => ⟨S_, .f32⟩
  | 2 => ⟨S_, .f32⟩
  | _ => ⟨S2x2048x50257, .f32⟩

abbrev hbmTy (i : Nat) : BufTy := match i / 128 with
  | 0 => hbmTy0_0 i
  | 1 => hbmTy0_1 i
  | _ => ⟨S2x2048x50257, .f32⟩

abbrev bufTy : (tb : Table) → Fin (tcTables nBuf tb) → BufTy
  | .hbm, ⟨i, _⟩ => hbmTy i
  | _, _ => ⟨S2x2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v8 : Ref sig .tc := ⟨.hbm, 30, rfl⟩
abbrev main_v9 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v13 : Ref sig .tc := ⟨.hbm, 59, rfl⟩
abbrev main_cst_3 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_c_1 : Ref sig .tc := ⟨.hbm, 73, rfl⟩
abbrev main_call4_c_2 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_3 : Ref sig .tc := ⟨.hbm, 81, rfl⟩
abbrev main_call4_v12 : Ref sig .tc := ⟨.hbm, 82, rfl⟩
abbrev main_call4_v13 : Ref sig .tc := ⟨.hbm, 83, rfl⟩
abbrev main_call4_cst : Ref sig .tc := ⟨.hbm, 84, rfl⟩
abbrev main_call4_v14 : Ref sig .tc := ⟨.hbm, 85, rfl⟩
abbrev main_v18 : Ref sig .tc := ⟨.hbm, 86, rfl⟩
abbrev main_v19 : Ref sig .tc := ⟨.hbm, 87, rfl⟩
abbrev main_cst_4 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_cst_5 : Ref sig .tc := ⟨.hbm, 98, rfl⟩
abbrev main_call5_v0 : Ref sig .tc := ⟨.hbm, 99, rfl⟩
abbrev main_call5_v1 : Ref sig .tc := ⟨.hbm, 100, rfl⟩
abbrev main_v29 : Ref sig .tc := ⟨.hbm, 101, rfl⟩
abbrev main_cst_6 : Ref sig .tc := ⟨.hbm, 102, rfl⟩
abbrev main_v30 : Ref sig .tc := ⟨.hbm, 103, rfl⟩
abbrev main_v31 : Ref sig .tc := ⟨.hbm, 104, rfl⟩
abbrev main_call6_cst : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_v5 : Ref sig .tc := ⟨.hbm, 111, rfl⟩
abbrev main_call6_v6 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_call6_v11 : Ref sig .tc := ⟨.hbm, 117, rfl⟩
abbrev main_v32 : Ref sig .tc := ⟨.hbm, 118, rfl⟩
abbrev main_v33 : Ref sig .tc := ⟨.hbm, 119, rfl⟩
abbrev main_cst_7 : Ref sig .tc := ⟨.hbm, 120, rfl⟩
abbrev main_call7_v0 : Ref sig .tc := ⟨.hbm, 121, rfl⟩
abbrev main_call7_v1 : Ref sig .tc := ⟨.hbm, 122, rfl⟩
abbrev main_v34 : Ref sig .tc := ⟨.hbm, 123, rfl⟩
abbrev main_cst_8 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_cst_9 : Ref sig .tc := ⟨.hbm, 128, rfl⟩
abbrev main_v38 : Ref sig .tc := ⟨.hbm, 129, rfl⟩
abbrev main_v39 : Ref sig .tc := ⟨.hbm, 130, rfl⟩

abbrev nD : Nat := 1
abbrev τ : Topo := Topo.v7x

variable {F : FTy → Type} [FloatOps F]

class Facts₀ : Prop where
  shapeCasts_S2x2048x50257_S4096x50257 : S2x2048x50257.ShapeCasts S4096x50257
  shapeCasts_S2x2048_S4096 : S2x2048.ShapeCasts S4096
  bcast_S_S4096 : S_.BroadcastsInDim S4096 (![] : Fin 0 → Fin S4096.rank)
  natLt_1_32 : 1 < 32
  reducesTo_S4096_S_d0 : S4096.ReducesTo [0] S_
  h_S_ : 0 < S_.numel
  reducesTo_S4096x50257_S4096_d1 : S4096x50257.ReducesTo [1] S4096
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S50257_S1x50257_1 : S50257.BroadcastsInDim S1x50257 (![1] : Fin 1 → Fin S1x50257.rank)
  bcast_S1x50257_S4096x50257_0_1 : S1x50257.BroadcastsInDim S4096x50257 (![0, 1] : Fin 2 → Fin S4096x50257.rank)
  bcast_S_S4096x50257 : S_.BroadcastsInDim S4096x50257 (![] : Fin 0 → Fin S4096x50257.rank)
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.RowSpec.lean ====
/-
  One row of the loss, as both programs compute it at the extended reals.

  A row is `x : Fin 50257 → EReal` (its logits), a label word `t` and the column numbers `col`.
  The label `-1` marks a row that does not count; `safeLabel t` is `t`, or `0` on such a row.
  Column `v` is "hot" when its number is the safe label.

  * the kernel reads the label's logit as the sum over the row of the hot entries, the background
    maximum as the maximum with the hot entry put at `-∞`, and the log of the sum of exponentials
    without a shift;
  * the reference reads the label's logit by position, and takes the log-softmax with the row
    maximum subtracted first.

  The definitions below spell each of these exactly as the printed operations do, so that the two
  programs' values are these functions by unfolding alone; `RowMath.lean` proves them equal.
-/
import Idealize.ShloMosaic.PureOps.Ideal
import Idealize.ShloMosaic.PureOps.Ideal.Laws
import Idealize.ShloMosaic.Lib.ValueIdx

noncomputable section

namespace ManifoldLoss

open Idealize.ShloMosaic

/-- The label, or `0` where the label is the "ignore" word `-1`. -/
def safeLabel (t : BitVec 32) : BitVec 32 :=
  Scalar.select (IntOp.cmpi .ne t 4294967295#32) t 0#32

/-- Column `v` carries the safe label's number. -/
def hot (col : Fin 50257 → BitVec 32) (t : BitVec 32) (v : Fin 50257) : BitVec 1 :=
  IntOp.cmpi .eq (col v) (safeLabel t)

/-- The label's logit as a masked sum over the row. -/
def pickedSum (x : Fin 50257 → EReal) (col : Fin 50257 → BitVec 32) (t : BitVec 32) : EReal :=
  ∑ v : Fin 50257, Scalar.select (hot col t v) (x v) 0

/-- The largest logit of the row with the label's own column put at `fill`. -/
def backgroundMax (fill lo : EReal) (x : Fin 50257 → EReal) (col : Fin 50257 → BitVec 32) (t : BitVec 32) : EReal :=
  (Finset.univ : Finset (Fin 50257)).fold max lo (fun v => Scalar.select (hot col t v) fill (x v))

/-- `log Σ exp` of the row, unshifted. -/
def logSumExp (x : Fin 50257 → EReal) : EReal := Ideal.log (∑ v : Fin 50257, Ideal.exp (x v))

/-- `log(1 + e^d)` in the stable form `max d 0 + log1p (exp (-|d|))`, with the guard for an undefined
    difference in front, as the kernel spells it (`0 - |d|`). -/
def softplusK (d : EReal) : EReal :=
  Scalar.select (Ideal.cmp .one (d - 0) (d - 0)) (d + 0)
    (max d 0 + Ideal.log1p (Ideal.exp (0 - max (d - 0) (-(d - 0)))))

/-- The same as the reference spells it (`-|d|`). -/
def softplusR (d : EReal) : EReal :=
  Scalar.select (Ideal.cmp .une (d - 0) (d - 0)) (d + 0)
    (max d 0 + Ideal.log1p (Ideal.exp (-(max (d - 0) (-(d - 0))))))

/-- What the kernel stores for one row: `(1 - x_t)² + softplus(bg - x_t) + ½ (lse - x_t)`, or `0` on an
    ignored row. `one`, `half` and `fill` are the values of the kernel's three literals. -/
def rowLossK (one half fill lo : EReal) (x : Fin 50257 → EReal) (col : Fin 50257 → BitVec 32) (t : BitVec 32) : EReal :=
  Scalar.select (IntOp.cmpi .ne t 4294967295#32)
    (((one - pickedSum x col t) * (one - pickedSum x col t)
        + softplusK (backgroundMax fill lo x col t - pickedSum x col t))
      + half * (logSumExp x - pickedSum x col t))
    0

end ManifoldLoss

end
-- ==== Proof.KernelRow.lean ====
/-
  What the kernel's body stores for one row of a block.

  The body holds a [32, 50257] block of logits, the block's 32 labels as a [32, 1] column and the
  column numbers as a [1, 50257] row. Each of its lane reductions, read at row `p`, is a sum or a
  maximum over that row's 50257 entries; each elementwise operation reads its operands at the same
  index. Put together, the value stored at `(p, 0)` is `ManifoldLoss.rowLossK` of row `p` of the
  logits, the column numbers and label `p`.
-/
import proofs.«402159_j15109694947924_3_alg».proof.Proof.Gen.KernelIdeal.Frame
import proofs.«402159_j15109694947924_3_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RowValue
open Cert.KernelIdeal Cert.KernelIdeal.Gen Idealize.ShloMosaic Idealize.ShloMosaic.ValueIdx ManifoldLoss

theorem lift_row (h : S32x50257.Reduces [1] S32) (p : Fin 32) (k : Fin (S32x50257.size 1)) :
    h.lift (ix1 p) k = ix2 p (⟨k.val, k.isLt⟩ : Fin 50257) := by
  funext c; apply Fin.ext
  fin_cases c <;> rfl

/-- a lane sum of a [32, 50257] block at row p -/
theorem row_sum (src : FVec Ideal S32x50257 .f32) (h : S32x50257.Reduces [1] S32) (hφ : FKind.Formats .f32)
    (hacc : (0x00000000#32 : BitVec 32) = 0x00000000#32) (p : Fin 32) :
    multiReduction .add [1] S32 src 0x00000000#32 h hφ hacc (ix1 p) = ∑ v : Fin 50257, src (ix2 p v) :=
  (Ideal.multiReduction_add_single src 0x00000000#32 h hφ hacc (ix1 p)).trans
    (Finset.sum_congr rfl fun k _ => congrArg src (lift_row h p k))

/-- a lane maximum of a [32, 50257] block at row p -/
theorem row_max (src : FVec Ideal S32x50257 .f32) (h : S32x50257.Reduces [1] S32) (hφ : FKind.Formats .f32)
    (hacc : (0xFF800000#32 : BitVec 32) = 0xFF800000#32) (p : Fin 32) :
    multiReduction .maximumf [1] S32 src 0xFF800000#32 h hφ hacc (ix1 p)
      = (Finset.univ : Finset (Fin 50257)).fold max (Ideal.ofBits .f32 0xFF800000#32) (fun v => src (ix2 p v)) :=
  (Ideal.multiReduction_maximumf_single src 0xFF800000#32 h hφ hacc (ix1 p)).trans
    (congrArg (fun f => (Finset.univ : Finset (Fin 50257)).fold max (Ideal.ofBits .f32 0xFF800000#32) f)
      (funext fun k => congrArg src (lift_row h p k)))

/-- a [32] vector kept as a [32, 1] column, read at (p, 0) -/
theorem col_of_vec (y : FVec Ideal S32 .f32) (h : S32.ShapeCasts S32x1) (p : Fin 32) :
    shapeCast S32x1 y h (ix2 p 0) = y (ix1 p) :=
  shapeCast_apply y h (ix2 p 0) (ix1 p) (by rw [Shape.rowMajor_val_two, Shape.rowMajor_val_one]; show p.val = p.val * 1 + 0; omega)

/-- the hot mask at (p, v) -/
theorem pay5_at (x1 : Vec Ideal S32x1 .i32) (x2 : Vec Ideal S1x50257 .i32) (p : Fin 32) (v : Fin 50257) :
    k0_pay5 (F := Ideal) x1 x2 (ix2 p v) = hot (fun v => x2 (ix2 0 v)) (x1 (ix2 p 0)) v := by
  unfold k0_pay5 k0_pay4 k0_pay3 hot safeLabel
  simp only [shapeCast_self]
  show IntOp.cmpi .eq (broadcastTo S32x50257 x2 _ (ix2 p v)) (broadcastTo S32x50257 _ _ (ix2 p v)) = _
  rw [broadcastTo_apply x2 _ (ix2 p v) (ix2 0 v) (by intro a; fin_cases a <;> rfl),
    broadcastTo_apply _ _ (ix2 p v) (ix2 p 0) (by intro a; fin_cases a <;> rfl)]
  rfl

/-- the label's logit of row p of the block -/
theorem pay6_at (x0 : Vec Ideal S32x50257 .f32) (x1 : Vec Ideal S32x1 .i32) (x2 : Vec Ideal S1x50257 .i32) (p : Fin 32) :
    k0_pay6 (F := Ideal) x0 x1 x2 (ix2 p 0) = pickedSum (fun v => x0 (ix2 p v)) (fun v => x2 (ix2 0 v)) (x1 (ix2 p 0)) := by
  unfold k0_pay6 k0_pay2 pickedSum
  simp only [shapeCast_self]
  rw [col_of_vec]
  refine (row_sum _ _ _ _ p).trans ?_
  refine Finset.sum_congr rfl fun v _ => ?_
  rw [select_apply, pay5_at]
  simp only [broadcast_apply, Ideal.ofBits_def, Ideal.ofBits_zero_f32]

/-- the kernel's three literals and the reduction's start, at the extended reals -/
abbrev oneK : EReal := FloatOps.ofBits (F := Ideal) .f32 0x3F800000#32
abbrev halfK : EReal := FloatOps.ofBits (F := Ideal) .f32 0x3F000000#32
abbrev fillK : EReal := Named.named (F := Ideal) κ "neg_big" (φ := .f32) 0xF149F2CA#32
abbrev loK : EReal := Ideal.ofBits .f32 0xFF800000#32

/-- the elementwise transcendental and comparison operations at an index (definitional) -/
theorem exp_at {s : Shape} (a : FVec Ideal s .f32) (i : s.Idx) : exp a i = Ideal.exp (a i) := rfl
theorem log_at {s : Shape} (a : FVec Ideal s .f32) (i : s.Idx) : log a i = Ideal.log (a i) := rfl
theorem log1p_at {s : Shape} (a : FVec Ideal s .f32) (i : s.Idx) : log1p a i = Ideal.log1p (a i) := rfl
theorem absf_at {s : Shape} (a : FVec Ideal s .f32) (i : s.Idx) : absf a i = max (a i) (-(a i)) := rfl
theorem cmpf_at {s : Shape} (q : CmpFPredicate) (a b : FVec Ideal s .f32) (i : s.Idx) : cmpf q a b i = Ideal.cmp q (a i) (b i) := rfl
theorem cmpi_at {s : Shape} {w : Nat} (q : CmpIPredicate) (a b : IVec s w) (i : s.Idx) : cmpi q a b i = IntOp.cmpi q (a i) (b i) := rfl

/-- two maxima over the row from one start agree when their members do -/
theorem fold_max_congr {f g : Fin 50257 → EReal} (lo : EReal) (h : ∀ v, f v = g v) :
    (Finset.univ : Finset (Fin 50257)).fold max lo f = (Finset.univ : Finset (Fin 50257)).fold max lo g := by
  rw [funext h]

theorem pay7_at (x0 : Vec Ideal S32x50257 .f32) (x1 : Vec Ideal S32x1 .i32) (x2 : Vec Ideal S1x50257 .i32) (p : Fin 32) :
    k0_pay7 (F := Ideal) x0 x1 x2 (ix2 p 0)
      = logSumExp (fun v => x0 (ix2 p v)) - pickedSum (fun v => x0 (ix2 p v)) (fun v => x2 (ix2 0 v)) (x1 (ix2 p 0)) := by
  unfold k0_pay7 k0_pay2 logSumExp
  simp only [shapeCast_self]
  rw [subf_apply, log_at, col_of_vec, pay6_at, row_sum]
  rfl

theorem pay8_at (x0 : Vec Ideal S32x50257 .f32) (x1 : Vec Ideal S32x1 .i32) (x2 : Vec Ideal S1x50257 .i32) (p : Fin 32) :
    k0_pay8 (F := Ideal) x0 x1 x2 (ix2 p 0)
      = (oneK - pickedSum (fun v => x0 (ix2 p v)) (fun v => x2 (ix2 0 v)) (x1 (ix2 p 0)))
        * (oneK - pickedSum (fun v => x0 (ix2 p v)) (fun v => x2 (ix2 0 v)) (x1 (ix2 p 0))) := by
  unfold k0_pay8
  simp only [mulf_apply, subf_apply, broadcast_apply, pay6_at]

theorem pay9_at (x0 : Vec Ideal S32x50257 .f32) (x1 : Vec Ideal S32x1 .i32) (x2 : Vec Ideal S1x50257 .i32) (p : Fin 32) :
    k0_pay9 (F := Ideal) x0 x1 x2 (ix2 p 0)
      = backgroundMax fillK loK (fun v => x0 (ix2 p v)) (fun v => x2 (ix2 0 v)) (x1 (ix2 p 0))
        - pickedSum (fun v => x0 (ix2 p v)) (fun v => x2 (ix2 0 v)) (x1 (ix2 p 0)) := by
  unfold k0_pay9 k0_pay2 backgroundMax
  simp only [shapeCast_self]
  rw [subf_apply, col_of_vec, pay6_at, row_max]
  refine congrArg₂ (· - ·) (fold_max_congr _ fun v => ?_) rfl
  rw [select_apply, pay5_at, broadcast_apply]

/-- the zero literal -/
theorem zeroK : (FloatOps.ofBits (F := Ideal) .f32 0x00000000#32 : EReal) = 0 := Ideal.ofBits_zero_f32

theorem pay4_at (x1 : Vec Ideal S32x1 .i32) (i : S32x1.Idx) :
    k0_pay4 (F := Ideal) x1 i = IntOp.cmpi .ne (x1 i) 4294967295#32 := by
  unfold k0_pay4 k0_pay3
  simp only [shapeCast_self, cmpi_at, broadcast_apply]

theorem pay10_at (x0 : Vec Ideal S32x50257 .f32) (x1 : Vec Ideal S32x1 .i32) (x2 : Vec Ideal S1x50257 .i32) (i : S32x1.Idx) :
    k0_pay10 (F := Ideal) x0 x1 x2 i = k0_pay9 x0 x1 x2 i - 0 := by
  unfold k0_pay10
  rw [subf_apply, broadcast_apply, zeroK]

theorem pay11_at (x0 : Vec Ideal S32x50257 .f32) (x1 : Vec Ideal S32x1 .i32) (x2 : Vec Ideal S1x50257 .i32) (i : S32x1.Idx) :
    k0_pay11 (F := Ideal) x0 x1 x2 i = Ideal.cmp .one (k0_pay10 x0 x1 x2 i) (k0_pay10 x0 x1 x2 i) := by
  unfold k0_pay11
  rw [cmpf_at]

theorem pay12_at (x0 : Vec Ideal S32x50257 .f32) (x1 : Vec Ideal S32x1 .i32) (x2 : Vec Ideal S1x50257 .i32) (i : S32x1.Idx) :
    k0_pay12 (F := Ideal) x0 x1 x2 i = k0_pay9 x0 x1 x2 i + 0 := by
  unfold k0_pay12
  rw [addf_apply, broadcast_apply, zeroK]

theorem pay13_at (x0 : Vec Ideal S32x50257 .f32) (x1 : Vec Ideal S32x1 .i32) (x2 : Vec Ideal S1x50257 .i32) (i : S32x1.Idx) :
    k0_pay13 (F := Ideal) x0 x1 x2 i
      = max (k0_pay9 x0 x1 x2 i) 0 + Ideal.log1p (Ideal.exp (0 - max (k0_pay10 x0 x1 x2 i) (-(k0_pay10 x0 x1 x2 i)))) := by
  unfold k0_pay13
  rw [addf_apply, maximumf_apply, log1p_at, exp_at, subf_apply, absf_at, broadcast_apply, zeroK]

theorem pay1_at (v7 : IVec S32x1 1) (v25 v28 : FVec Ideal S32x1 .f32) (v34 : IVec S32x1 1) (v36 v42 : FVec Ideal S32x1 .f32) (i : S32x1.Idx) :
    k0_pay1 (F := Ideal) v7 v25 v28 v34 v36 v42 i
      = Scalar.select (v7 i) ((v28 i + Scalar.select (v34 i) (v36 i) (v42 i)) + halfK * v25 i) 0 := by
  unfold k0_pay1
  rw [select_apply, addf_apply, addf_apply, select_apply, mulf_apply, broadcast_apply, broadcast_apply, zeroK]

/-- WHAT THE BODY STORES at row p of the block: the row's loss as the kernel spells it. -/
theorem stored_at (x0 : Vec Ideal S32x50257 .f32) (x1 : Vec Ideal S32x1 .i32) (x2 : Vec Ideal S1x50257 .i32) (p : Fin 32) :
    k0_pay1 (F := Ideal) (k0_pay4 x1) (k0_pay7 x0 x1 x2) (k0_pay8 x0 x1 x2) (k0_pay11 x0 x1 x2) (k0_pay12 x0 x1 x2) (k0_pay13 x0 x1 x2) (ix2 p 0)
      = rowLossK oneK halfK fillK loK (fun v => x0 (ix2 p v)) (fun v => x2 (ix2 0 v)) (x1 (ix2 p 0)) := by
  rw [pay1_at, pay4_at, pay11_at, pay12_at, pay13_at, pay10_at, pay7_at, pay8_at, pay9_at]
  unfold rowLossK softplusK
  generalize pickedSum (fun v => x0 (ix2 p v)) (fun v => x2 (ix2 0 v)) (x1 (ix2 p 0)) = tl
  generalize backgroundMax fillK loK (fun v => x0 (ix2 p v)) (fun v => x2 (ix2 0 v)) (x1 (ix2 p 0)) = mb
  generalize logSumExp (fun v => x0 (ix2 p v)) = lse
  rfl

end Cert.KernelIdeal.RowValue

end
-- ==== Proof.KernelValue.lean ====
/-
  The kernel program's result as one term of its two arguments.

  Grid point `t` stages rows `32 t … 32 t + 31` of the logits and of the labels and the whole row of
  column numbers, and writes back rows `32 t … 32 t + 31` of the [4096, 1] result; the 128 points'
  blocks cover the result, so after the region row `r` of it holds the loss of row `r`
  (`lossArr`). The host lines before the region reshape the arguments, count the rows that count and
  build the column numbers; the lines after it sum the result and divide by the count.
-/
import proofs.«402159_j15109694947924_3_alg».proof.Proof.KernelRow

noncomputable section

namespace Cert.KernelIdeal.ArrValue
open Cert.KernelIdeal Cert.KernelIdeal.Gen Idealize.ShloMosaic Idealize.ShloMosaic.ValueIdx Idealize.ShloMosaic.TcCoe
open Idealize.ShloMosaic.Pipeline (Dat Cfg Window)
open Idealize.SL.Sem ManifoldLoss Cert.KernelIdeal.RowValue

variable (m : (ℓ : Loc nD τ sig) → Buf (Elt Ideal) ℓ) (ρ : Dev nD → PrngReg)

theorem hz : (![0, 0] : Fin 2 → Nat) = fun _ => 0 := funext fun a => by fin_cases a <;> rfl

/-- The row of an index of the [4096, 1] result. -/
abbrev rowOf (i : S4096x1.Idx) : Fin 4096 := ⟨(i 0).val, (i 0).isLt⟩

/-- The result array: row `r` holds the loss of row `r` of the logits under label `r`. -/
def lossArr (A0 : Vec Ideal S4096x50257 .f32) (A1 : Vec Ideal S4096x1 .i32) (A2 : Vec Ideal S1x50257 .i32) : Vec Ideal S4096x1 .f32 :=
  fun i => rowLossK oneK halfK fillK loK (fun v => A0 (ix2 (rowOf i) v)) (fun v => A2 (ix2 0 v)) (A1 (ix2 (rowOf i) 0))

/-- what the body stores, at any index of the [32, 1] block -/
theorem stored_idx (x0 : Vec Ideal S32x50257 .f32) (x1 : Vec Ideal S32x1 .i32) (x2 : Vec Ideal S1x50257 .i32) (j : S32x1.Idx) :
    k0_pay1 (F := Ideal) (k0_pay4 x1) (k0_pay7 x0 x1 x2) (k0_pay8 x0 x1 x2) (k0_pay11 x0 x1 x2) (k0_pay12 x0 x1 x2) (k0_pay13 x0 x1 x2) j
      = rowLossK oneK halfK fillK loK (fun v => x0 (ix2 (⟨(j 0).val, (j 0).isLt⟩ : Fin 32) v)) (fun v => x2 (ix2 0 v)) (x1 j) := by
  obtain ⟨p, q, rfl⟩ : ∃ (p : Fin 32) (q : Fin 1), j = ix2 p q := ⟨j 0, j 1, eq_ix2 j⟩
  obtain rfl : q = 0 := Subsingleton.elim _ _
  exact stored_at x0 x1 x2 p

/-- The printed index maps over the grid: point `t` takes block `t` of the rows, and the one block of the columns. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- the three input arrays as the region finds them, at their literal types -/
abbrev lgA (c : Dev nD) : Vec Ideal S4096x50257 .f32 := V m c main_v0
abbrev tgA (c : Dev nD) : Vec Ideal S4096x1 .i32 := V m c main_v8
abbrev colA (c : Dev nD) : Vec Ideal S1x50257 .i32 := V m c main_v10

/-- WHAT POINT `t` WRITES BACK is block `t` of the result array. -/
theorem flushed_eq (c : Dev nD) (t : Fin cfg0.N) :
    (dats m 0 c).flushed 3 t = ((cfg0.win 3).blk t).view.read (Elt Ideal) (lossArr (lgA m c) (tgA m c) (colA m c)) := by
  show (cfg0.win 3).cut (grid0.coords t) ((dats m 0 c).after 3 t) = _
  rw [after0_3]
  unfold out0_3
  rw [View.canon_unit_zero hz]
  simp only [View.ld_unit_zero (S := S32x50257) hz, View.ld_unit_zero (S := S32x1) hz, View.ld_unit_zero (S := S1x50257) hz]
  obtain ⟨e0, e1, e2, e3, e4, e5, e6, e7⟩ := idx_facts t
  funext j
  refine (stored_idx (iblk m c 0 t) (iblk m c 1 t) (iblk m c 2 t) j).trans ?_
  unfold lossArr
  have hrow : ∀ v : Fin 50257, ((cfg0.win 0).blk t).view.emb (ix2 (⟨(j 0).val, (j 0).isLt⟩ : Fin 32) v)
      = ix2 (rowOf (((cfg0.win 3).blk t).view.emb j)) v := by
    intro v; funext a; apply Fin.ext
    match a with
    | ⟨0, _⟩ => show win0_0.index t (0 : Fin 2) * 32 + 1 * (j 0).val = win0_3.index t (0 : Fin 2) * 32 + 1 * (j 0).val; omega
    | ⟨1, _⟩ => show win0_0.index t (1 : Fin 2) * 50257 + 1 * v.val = v.val; omega
  have hcol : ∀ v : Fin 50257, ((cfg0.win 2).blk t).view.emb (ix2 (0 : Fin 1) v) = ix2 (0 : Fin 1) v := by
    intro v; funext a; apply Fin.ext
    match a with
    | ⟨0, _⟩ => show win0_2.index t (0 : Fin 2) * 1 + 1 * 0 = 0; omega
    | ⟨1, _⟩ => show win0_2.index t (1 : Fin 2) * 50257 + 1 * v.val = v.val; omega
  have htg : ((cfg0.win 1).blk t).view.emb j = ix2 (rowOf (((cfg0.win 3).blk t).view.emb j)) (0 : Fin 1) := by
    funext a; apply Fin.ext
    match a with
    | ⟨0, _⟩ => show win0_1.index t (0 : Fin 2) * 32 + 1 * (j 0).val = win0_3.index t (0 : Fin 2) * 32 + 1 * (j 0).val; omega
    | ⟨1, _⟩ => show win0_1.index t (1 : Fin 2) * 1 + 1 * (j 1).val = 0; have : (j 1).val < 1 := (j 1).isLt; omega
  have h0 : (fun v : Fin 50257 => iblk m c 0 t (ix2 (⟨(j 0).val, (j 0).isLt⟩ : Fin 32) v))
      = fun v => lgA m c (ix2 (rowOf (((cfg0.win 3).blk t).view.emb j)) v) :=
    funext fun v => congrArg (lgA m c) (hrow v)
  have h2 : (fun v : Fin 50257 => iblk m c 2 t (ix2 (0 : Fin 1) v)) = fun v => colA m c (ix2 (0 : Fin 1) v) :=
    funext fun v => congrArg (colA m c) (hcol v)
  have h1 : iblk m c 1 t j = tgA m c (ix2 (rowOf (((cfg0.win 3).blk t).view.emb j)) (0 : Fin 1)) :=
    congrArg (tgA m c) htg
  rw [h0, h2, h1]
  rfl

/-- An index of the result array is in point `t`'s block iff each coordinate is in the block's range. -/
theorem mem_blk (t : Fin cfg0.N) (i : S4096x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v11).slice (win0_3.rect t)).set ↔ _
  rw [View.set_slice_whole, Rect.mem_set_unit]
  exact Iff.rfl

/-- Every row is in the block of the point that is its number divided by 32. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  refine ⟨⟨(i 0).val / 32, by show (i 0).val / 32 < 128; omega⟩, flush0_3 _, ?_⟩
  rw [mem_blk]
  obtain ⟨e0, e1, -⟩ := idx_facts ⟨(i 0).val / 32, by show (i 0).val / 32 < 128; omega⟩
  intro a
  match a with
  | ⟨0, _⟩ => show win0_3.index _ (0 : Fin 2) * 32 ≤ (i 0).val ∧ (i 0).val < win0_3.index _ (0 : Fin 2) * 32 + 32; rw [e0]; show (i 0).val / 32 * 32 ≤ _ ∧ _ < (i 0).val / 32 * 32 + 32; omega
  | ⟨1, _⟩ => show win0_3.index _ (1 : Fin 2) * 1 ≤ (i 1).val ∧ (i 1).val < win0_3.index _ (1 : Fin 2) * 1 + 1; rw [e1]; omega

/-- THE RESULT ARRAY after the region. -/
theorem final (c : Dev nD) : (dats m 0 c).arrAt 3 cfg0.N = lossArr (lgA m c) (tgA m c) (colA m c) :=
  (dats m 0 c).arrAt_eq_of_cover 3 (lossArr (lgA m c) (tgA m c) (colA m c)) (fun t _ => flushed_eq m c t) cover

/-! ## The program's result: the host lines around the region -/

/-- The count of rows that count, at least one, as a real: what both programs divide by. -/
def rowCount {F : FTy → Type} [FloatOps F] (x1 : IVec S2x2048 32) : FVec F S_ .f32 :=
  sitofp .f32 (maxsi (Host.reduce IntOp.addi (extui 32 (cmpi .ne (shapeCast S4096 x1 shapeCasts_S2x2048_S4096) (broadcastInDim S4096 ![] bcast_S_S4096 (constantI S_ 32 4294967295#32))) natLt_1_32) (constantI S_ 32 0#32) reducesTo_S4096_S_d0 h_S_) (constantI S_ 32 1#32))

theorem lgA_eq (c : Dev nD) : lgA m c = shapeCast S4096x50257 (m ((c.tc : Thread nD τ).loc main_arg0)) shapeCasts_S2x2048x50257_S4096x50257 := by
  show StableHlo.after hostOps0 (fun b => m (c, b)) (Proc.devRef .tc main_v0) = _
  after_results
  rfl

theorem tgA_eq (c : Dev nD) : tgA m c = shapeCast S4096x1 (shapeCast S4096 (m ((c.tc : Thread nD τ).loc main_arg1)) shapeCasts_S2x2048_S4096) shapeCasts_S4096_S4096x1 := by
  show StableHlo.after hostOps0 (fun b => m (c, b)) (Proc.devRef .tc main_v8) = _
  after_results
  rfl

theorem colA_eq (c : Dev nD) : colA m c = shapeCast S1x50257 (iotaInDim S50257 32 0) shapeCasts_S50257_S1x50257 := by
  show StableHlo.after hostOps0 (fun b => m (c, b)) (Proc.devRef .tc main_v10) = _
  after_results
  rfl

theorem count_eq (c : Dev nD) : (V0 m c (Proc.devRef .tc main_v7) : FVec Ideal S_ .f32) = rowCount (F := Ideal) (m ((c.tc : Thread nD τ).loc main_arg1)) := by
  show StableHlo.after hostOps0 (fun b => m (c, b)) (Proc.devRef .tc main_v7) = _
  after_results
  rfl

/-- The kernel program's result as one term of the two arguments. -/
def kernelResult (x0 : FVec Ideal S2x2048x50257 .f32) (x1 : IVec S2x2048 32) : FVec Ideal S_ .f32 :=
  Host.divf
    (Host.reduceAdd
      (lossArr (shapeCast S4096x50257 x0 shapeCasts_S2x2048x50257_S4096x50257)
        (shapeCast S4096x1 (shapeCast S4096 x1 shapeCasts_S2x2048_S4096) shapeCasts_S4096_S4096x1)
        (shapeCast S1x50257 (iotaInDim S50257 32 0) shapeCasts_S50257_S1x50257))
      (constant S_ .f32 0x00000000#32) reducesTo_S4096x1_S_d0_1 h_S_)
    (rowCount (F := Ideal) x1)

theorem tail_eq (c : Dev nD) :
    Pipeline.afterTail₀ cfgs (dats m) 0 (V0 m) [hostOps1] c main_v13
      = kernelResult (m ((c.tc : Thread nD τ).loc main_arg0)) (m ((c.tc : Thread nD τ).loc main_arg1)) := by
  unfold Pipeline.afterTail₀
  show StableHlo.after hostOps1 _ (Proc.devRef .tc main_v13) = _
  after_results
  have e1 : (Pipeline.withArrays (cfgs 0).spec c (V0 m c) (fun w => (dats m 0 c).arrAt w (cfgs 0).N) (Proc.devRef .tc main_v11) : FVec Ideal S4096x1 .f32)
      = lossArr (lgA m c) (tgA m c) (colA m c) :=
    (Pipeline.withArrays_arr spec0 launch0.win.arr_inj c _ _ 3).trans (final m c)
  have e2 : (Pipeline.withArrays (cfgs 0).spec c (V0 m c) (fun w => (dats m 0 c).arrAt w (cfgs 0).N) (Proc.devRef .tc main_v7) : FVec Ideal S_ .f32)
      = rowCount (F := Ideal) (m ((c.tc : Thread nD τ).loc main_arg1)) :=
    (Pipeline.withArrays_of_ne _ c (V0 m c) _ main_v7 (by exact (by decide : ∀ w, Pipeline.arrRef spec0 w ≠ main_v7))).trans (count_eq m c)
  rw [e1, e2, lgA_eq, tgA_eq, colA_eq]
  rfl

/-- THE KERNEL PROGRAM'S RUN: it ends with its result at `kernelResult` of the arguments, and the arguments unchanged. -/
theorem run : θ_run defs (onTc (τ := τ) (main (F := Ideal))) ⟨m, fun _ => 0, ρ⟩ (fun r => ∀ c : Dev nD,
      r.2.mem ((c.tc : Thread nD τ).loc main_v13) = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrValue

end
-- ==== Proof.RefFold.lean ====
/-
  The reference's run, stated against its stages.

  The run (`ValueP.run_fold`) leaves every buffer at the fold of the 129 operations' results over the
  launch contents. The operation list is cut at the calls it inlines into eight stretches. A stretch, run
  from any contents that hold the stages still to be read, leaves those stages in place and each of its
  own results at its stage (the stages of one stretch unfold to a small term over the stages it reads).
  Chained, the fold at the result buffer is the last stage `val_main_v39` of the two arguments; the
  argument buffers are written by no operation.
-/
import proofs.«402159_j15109694947924_3_alg».proof.Proof.RefReadP
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The eight stretches -/

/-- Operations 1–14. -/
abbrev ops1 : List (HloOp τ sig (Elt F)) :=
  [ reshape main_arg0 main_v0 rfl shapeCasts_S2x2048x50257_S4096x50257,
    reshape main_arg1 main_v1 rfl shapeCasts_S2x2048_S4096,
    nullary main_c (constantI S_ 32 4294967295#32),
    unary main_c main_v2 (broadcastInDim S4096 ![] bcast_S_S4096 : (⟨S_, .i32⟩ : BufTy).Contents (Elt F) → (⟨S4096, .i32⟩ : BufTy).Contents (Elt F)),
    binary main_v1 main_v2 main_v3 (cmpi .ne : (⟨S4096, .i32⟩ : BufTy).Contents (Elt F) → (⟨S4096, .i32⟩ : BufTy).Contents (Elt F) → (⟨S4096, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4096, .i32⟩) main_call0_v1) (broadcastInDim S4096 ![] bcast_S_S4096),
    TRef.ternary (TRef.of (T := ⟨S4096, .i1⟩) main_v3) (TRef.of (T := ⟨S4096, .i32⟩) main_v1) (TRef.of (T := ⟨S4096, .i32⟩) main_call0_v1) (TRef.of (T := ⟨S4096, .i32⟩) main_v4) select,
    unary main_v3 main_v5 ((extui 32 · natLt_1_32) : (⟨S4096, .i1⟩ : BufTy).Contents (Elt F) → (⟨S4096, .i32⟩ : BufTy).Contents (Elt F)),
    nullary main_c_1 (constantI S_ 32 0#32),
    binary main_v5 main_c_1 main_v6 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_2 (constantI S_ 32 1#32),
    binary main_v6 main_c_2 main_v7 (maxsi : (⟨S_, .i32⟩ : BufTy).Contents (Elt F) → (⟨S_, .i32⟩ : BufTy).Contents (Elt F) → (⟨S_, .i32⟩ : BufTy).Contents (Elt F)) ]

/-- Operations 15–29. -/
abbrev ops2 : List (HloOp τ sig (Elt F)) :=
  [ TRef.nullary (TRef.of (T := ⟨S_, .f32⟩) main_call1_cst) (constant S_ .f32 0xFF800000#32),
    TRef.binary (TRef.of (T := ⟨S4096x50257, .f32⟩) main_v0) (TRef.of (T := ⟨S_, .f32⟩) main_call1_cst) (TRef.of (T := ⟨S4096, .f32⟩) main_call1_v0) (fun x v => Host.reduce FloatOps.maximumf x v reducesTo_S4096x50257_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x50257, .f32⟩) main_call1_v4) (broadcastInDim S4096x50257 ![0, 1] bcast_S4096x1_S4096x50257_0_1),
    TRef.binary (TRef.of (T := ⟨S4096x50257, .f32⟩) main_v0) (TRef.of (T := ⟨S4096x50257, .f32⟩) main_call1_v4) (TRef.of (T := ⟨S4096x50257, .f32⟩) main_call1_v5) subf,
    TRef.unary (TRef.of (T := ⟨S4096x50257, .f32⟩) main_call1_v5) (TRef.of (T := ⟨S4096x50257, .f32⟩) main_call1_v6) Host.exp,
    TRef.nullary (TRef.of (T := ⟨S_, .f32⟩) main_call1_cst_1) (constant S_ .f32 0x00000000#32),
    TRef.binary (TRef.of (T := ⟨S4096x50257, .f32⟩) main_call1_v6) (TRef.of (T := ⟨S_, .f32⟩) main_call1_cst_1) (TRef.of (T := ⟨S4096, .f32⟩) main_call1_v7) (fun x v => Host.reduceAdd x v reducesTo_S4096x50257_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x50257, .f32⟩) main_call1_v10) (broadcastInDim S4096x50257 ![0, 1] bcast_S4096x1_S4096x50257_0_1),
    TRef.binary (TRef.of (T := ⟨S4096x50257, .f32⟩) main_call1_v5) (TRef.of (T := ⟨S4096x50257, .f32⟩) main_call1_v10) (TRef.of (T := ⟨S4096x50257, .f32⟩) main_v8) subf ]

/-- Operations 30–52. -/
abbrev ops3 : List (HloOp τ sig (Elt F)) :=
  [ unary main_v4 main_v9 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x1, .i32⟩) main_call2_v0) (broadcastInDim S4096x1 ![] bcast_S_S4096x1),
    TRef.binary (TRef.of (T := ⟨S4096x1, .i32⟩) main_v9) (TRef.of (T := ⟨S4096x1, .i32⟩) main_call2_v0) (TRef.of (T := ⟨S4096x1, .i1⟩) main_call2_v1) (cmpi .slt),
    TRef.nullary (TRef.of (T := ⟨S_, .i32⟩) main_call2_c_0) (constantI S_ 32 50257#32),
    TRef.unary (TRef.of (T := ⟨S_, .i32⟩) main_call2_c_0) (TRef.of (T := ⟨S4096x1, .i32⟩) main_call2_v2) (broadcastInDim S4096x1 ![] bcast_S_S4096x1),
    TRef.binary (TRef.of (T := ⟨S4096x1, .i32⟩) main_v9) (TRef.of (T := ⟨S4096x1, .i32⟩) main_call2_v2) (TRef.of (T := ⟨S4096x1, .i32⟩) main_call2_v3) addi,
    TRef.ternary (TRef.of (T := ⟨S4096x1, .i1⟩) main_call2_v1) (TRef.of (T := ⟨S4096x1, .i32⟩) main_call2_v3) (TRef.of (T := ⟨S4096x1, .i32⟩) main_v9) (TRef.of (T := ⟨S4096x1, .i32⟩) main_call2_v4) select,
    TRef.reshape (TRef.of (T := ⟨S4096x1, .i32⟩) main_call2_v4) (TRef.of (T := ⟨S4096x1x1, .i32⟩) main_call2_v5) rfl shapeCasts_S4096x1_S4096x1x1,
    TRef.nullary (TRef.of (T := ⟨S1, .i32⟩) main_call2_c_1) (constantI S1 32 50256#32),
    TRef.nullary (TRef.of (T := ⟨S_, .i32⟩) main_call2_c_2) (constantI S_ 32 0#32),
    TRef.unary (TRef.of (T := ⟨S_, .i32⟩) main_call2_c_2) (TRef.of (T := ⟨S4096x1x1, .i32⟩) main_call2_v6) (broadcastInDim S4096x1x1 ![] bcast_S_S4096x1x1),
    TRef.binary (TRef.of (T := ⟨S4096x1x1, .i32⟩) main_call2_v5) (TRef.of (T := ⟨S4096x1x1, .i32⟩) main_call2_v6) (TRef.of (T := ⟨S4096x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x1x1, .i32⟩) main_call2_v9) (broadcastInDim S4096x1x1 ![0, 1, 2] bcast_S1x1x1_S4096x1x1_0_1_2),
    TRef.binary (TRef.of (T := ⟨S4096x1x1, .i32⟩) main_call2_v5) (TRef.of (T := ⟨S4096x1x1, .i32⟩) main_call2_v9) (TRef.of (T := ⟨S4096x1x1, .i1⟩) main_call2_v10) (cmpi .sle),
    TRef.binary (TRef.of (T := ⟨S4096x1x1, .i1⟩) main_call2_v7) (TRef.of (T := ⟨S4096x1x1, .i1⟩) main_call2_v10) (TRef.of (T := ⟨S4096x1x1, .i1⟩) main_call2_v11) andi,
    TRef.nullary (TRef.of (T := ⟨S_, .i1⟩) main_call2_c_3) (constantI S_ 1 1#1),
    TRef.binary (TRef.of (T := ⟨S4096x1x1, .i1⟩) main_call2_v11) (TRef.of (T := ⟨S_, .i1⟩) main_call2_c_3) (TRef.of (T := ⟨S4096x1, .i1⟩) main_call2_v12) (fun x v => Host.reduce IntOp.andi x v reducesTo_S4096x1x1_S4096x1_d2 h_S_),
    TRef.binary (TRef.of (T := ⟨S4096x50257, .f32⟩) main_v8) (TRef.of (T := ⟨S4096x1x1, .i32⟩) main_call2_v5) (TRef.of (T := ⟨S4096x1, .f32⟩) main_call2_v13) (fun x i => Host.gather gather_S4096x50257_S4096x1x1_S4096x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x1, .f32⟩) main_call2_v14) (broadcastInDim S4096x1 ![] bcast_S_S4096x1),
    TRef.ternary (TRef.of (T := ⟨S4096x1, .i1⟩) main_call2_v12) (TRef.of (T := ⟨S4096x1, .f32⟩) main_call2_v13) (TRef.of (T := ⟨S4096x1, .f32⟩) main_call2_v14) (TRef.of (T := ⟨S4096x1, .f32⟩) main_v10) select ]

/-- Operations 53–62. -/
abbrev ops4 : List (HloOp τ sig (Elt F)) :=
  [ reshape main_v10 main_v11 rfl shapeCasts_S4096x1_S4096,
    unary main_v11 main_v12 (Host.negf : (⟨S4096, .f32⟩ : BufTy).Contents (Elt F) → (⟨S4096, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v3) (TRef.of (T := ⟨S4096, .f32⟩) main_v12) (TRef.of (T := ⟨S4096, .f32⟩) main_call3_v1) (TRef.of (T := ⟨S4096, .f32⟩) main_v13) select,
    nullary main_cst_3 (constant S_ .f32 0x00000000#32),
    binary main_v13 main_cst_3 main_v14 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v7 main_v15 (sitofp .f32 : (⟨S_, .i32⟩ : BufTy).Contents (Elt F) → (⟨S_, .f32⟩ : BufTy).Contents (Elt F)),
    binary main_v14 main_v15 main_v16 (Host.divf : (⟨S_, .f32⟩ : BufTy).Contents (Elt F) → (⟨S_, .f32⟩ : BufTy).Contents (Elt F) → (⟨S_, .f32⟩ : BufTy).Contents (Elt F)) ]

/-- Operations 63–85. -/
abbrev ops5 : List (HloOp τ sig (Elt F)) :=
  [ unary main_v4 main_v17 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4096x1, .i32⟩) main_call4_v0) (broadcastInDim S4096x1 ![] bcast_S_S4096x1),
    TRef.binary (TRef.of (T := ⟨S4096x1, .i32⟩) main_v17) (TRef.of (T := ⟨S4096x1, .i32⟩) main_call4_v0) (TRef.of (T := ⟨S4096x1, .i1⟩) main_call4_v1) (cmpi .slt),
    TRef.nullary (TRef.of (T := ⟨S_, .i32⟩) main_call4_c_0) (constantI S_ 32 50257#32),
    TRef.unary (TRef.of (T := ⟨S_, .i32⟩) main_call4_c_0) (TRef.of (T := ⟨S4096x1, .i32⟩) main_call4_v2) (broadcastInDim S4096x1 ![] bcast_S_S4096x1),
    TRef.binary (TRef.of (T := ⟨S4096x1, .i32⟩) main_v17) (TRef.of (T := ⟨S4096x1, .i32⟩) main_call4_v2) (TRef.of (T := ⟨S4096x1, .i32⟩) main_call4_v3) addi,
    TRef.ternary (TRef.of (T := ⟨S4096x1, .i1⟩) main_call4_v1) (TRef.of (T := ⟨S4096x1, .i32⟩) main_call4_v3) (TRef.of (T := ⟨S4096x1, .i32⟩) main_v17) (TRef.of (T := ⟨S4096x1, .i32⟩) main_call4_v4) select,
    TRef.reshape (TRef.of (T := ⟨S4096x1, .i32⟩) main_call4_v4) (TRef.of (T := ⟨S4096x1x1, .i32⟩) main_call4_v5) rfl shapeCasts_S4096x1_S4096x1x1,
    TRef.nullary (TRef.of (T := ⟨S1, .i32⟩) main_call4_c_1) (constantI S1 32 50256#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v6) (broadcastInDim S4096x1x1 ![] bcast_S_S4096x1x1),
    TRef.binary (TRef.of (T := ⟨S4096x1x1, .i32⟩) main_call4_v5) (TRef.of (T := ⟨S4096x1x1, .i32⟩) main_call4_v6) (TRef.of (T := ⟨S4096x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S4096x1x1, .i32⟩) main_call4_v9) (broadcastInDim S4096x1x1 ![0, 1, 2] bcast_S1x1x1_S4096x1x1_0_1_2),
    TRef.binary (TRef.of (T := ⟨S4096x1x1, .i32⟩) main_call4_v5) (TRef.of (T := ⟨S4096x1x1, .i32⟩) main_call4_v9) (TRef.of (T := ⟨S4096x1x1, .i1⟩) main_call4_v10) (cmpi .sle),
    TRef.binary (TRef.of (T := ⟨S4096x1x1, .i1⟩) main_call4_v7) (TRef.of (T := ⟨S4096x1x1, .i1⟩) main_call4_v10) (TRef.of (T := ⟨S4096x1x1, .i1⟩) main_call4_v11) andi,
    TRef.nullary (TRef.of (T := ⟨S_, .i1⟩) main_call4_c_3) (constantI S_ 1 1#1),
    TRef.binary (TRef.of (T := ⟨S4096x1x1, .i1⟩) main_call4_v11) (TRef.of (T := ⟨S_, .i1⟩) main_call4_c_3) (TRef.of (T := ⟨S4096x1, .i1⟩) main_call4_v12) (fun x v => Host.reduce IntOp.andi x v reducesTo_S4096x1x1_S4096x1_d2 h_S_),
    TRef.binary (TRef.of (T := ⟨S4096x50257, .f32⟩) main_v0) (TRef.of (T := ⟨S4096x1x1, .i32⟩) main_call4_v5) (TRef.of (T := ⟨S4096x1, .f32⟩) main_call4_v13) (fun x i => Host.gather gather_S4096x50257_S4096x1x1_S4096x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S4096x1, .f32⟩) main_call4_v14) (broadcastInDim S4096x1 ![] bcast_S_S4096x1),
    TRef.ternary (TRef.of (T := ⟨S4096x1, .i1⟩) main_call4_v12) (TRef.of (T := ⟨S4096x1, .f32⟩) main_call4_v13) (TRef.of (T := ⟨S4096x1, .f32⟩) main_call4_v14) (TRef.of (T := ⟨S4096x1, .f32⟩) main_v18) select ]

/-- Operations 86–103. -/
abbrev ops6 : List (HloOp τ sig (Elt F)) :=
  [ reshape main_v18 main_v19 rfl shapeCasts_S4096x1_S4096,
    nullary main_cst_4 (constant S_ .f32 0x3F800000#32),
    unary main_cst_4 main_v20 (broadcastInDim S4096 ![] bcast_S_S4096 : (⟨S_, .f32⟩ : BufTy).Contents (Elt F) → (⟨S4096, .f32⟩ : BufTy).Contents (Elt F)),
    binary main_v20 main_v19 main_v21 (subf : (⟨S4096, .f32⟩ : BufTy).Contents (Elt F) → (⟨S4096, .f32⟩ : BufTy).Contents (Elt F) → (⟨S4096, .f32⟩ : BufTy).Contents (Elt F)),
    binary main_v21 main_v21 main_v22 (mulf : (⟨S4096, .f32⟩ : BufTy).Contents (Elt F) → (⟨S4096, .f32⟩ : BufTy).Contents (Elt F) → (⟨S4096, .f32⟩ : BufTy).Contents (Elt F)),
    nullary main_v23 (iotaInDim S50257 32 0),
    unary main_v23 main_v24 (broadcastInDim S1x50257 ![1] bcast_S50257_S1x50257_1 : (⟨S50257, .i32⟩ : BufTy).Contents (Elt F) → (⟨S1x50257, .i32⟩ : BufTy).Contents (Elt F)),
    unary main_v4 main_v25 (broadcastInDim S4096x1 ![0] bcast_S4096_S4096x1_0 : (⟨S4096, .i32⟩ : BufTy).Contents (Elt F) → (⟨S4096x1, .i32⟩ : BufTy).Contents (Elt F)),
    unary main_v24 main_v26 (broadcastInDim S4096x50257 ![0, 1] bcast_S1x50257_S4096x50257_0_1 : (⟨S1x50257, .i32⟩ : BufTy).Contents (Elt F) → (⟨S4096x50257, .i32⟩ : BufTy).Contents (Elt F)),
    unary main_v25 main_v27 (broadcastInDim S4096x50257 ![0, 1] bcast_S4096x1_S4096x50257_0_1 : (⟨S4096x1, .i32⟩ : BufTy).Contents (Elt F) → (⟨S4096x50257, .i32⟩ : BufTy).Contents (Elt F)),
    binary main_v26 main_v27 main_v28 (cmpi .eq : (⟨S4096x50257, .i32⟩ : BufTy).Contents (Elt F) → (⟨S4096x50257, .i32⟩ : BufTy).Contents (Elt F) → (⟨S4096x50257, .i1⟩ : BufTy).Contents (Elt F)),
    nullary main_cst_5 (constant S_ .f32 0xFF800000#32),
    TRef.unary (TRef.of (T := ⟨S_, .f32⟩) main_cst_5) (TRef.of (T := ⟨S_, .f32⟩) main_call5_v0) id,
    TRef.unary (TRef.of (T := ⟨S_, .f32⟩) main_call5_v0) (TRef.of (T := ⟨S4096x50257, .f32⟩) main_call5_v1) (broadcastInDim S4096x50257 ![] bcast_S_S4096x50257),
    TRef.ternary (TRef.of (T := ⟨S4096x50257, .i1⟩) main_v28) (TRef.of (T := ⟨S4096x50257, .f32⟩) main_call5_v1) (TRef.of (T := ⟨S4096x50257, .f32⟩) main_v0) (TRef.of (T := ⟨S4096x50257, .f32⟩) main_v29) select,
    nullary main_cst_6 (constant S_ .f32 0xFF800000#32),
    binary main_v29 main_cst_6 main_v30 ((fun x v => Host.reduce FloatOps.maximumf x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    binary main_v30 main_v19 main_v31 (subf : (⟨S4096, .f32⟩ : BufTy).Contents (Elt F) → (⟨S4096, .f32⟩ : BufTy).Contents (Elt F) → (⟨S4096, .f32⟩ : BufTy).Contents (Elt F)) ]

/-- Operations 104–117. -/
abbrev ops7 : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S4096, .f32⟩) main_call6_v0) (broadcastInDim S4096 ![] bcast_S_S4096),
    TRef.binary (TRef.of (T := ⟨S4096, .f32⟩) main_v31) (TRef.of (T := ⟨S4096, .f32⟩) main_call6_v0) (TRef.of (T := ⟨S4096, .f32⟩) main_call6_v1) maximumf,
    TRef.unary (TRef.of (T := ⟨S_, .f32⟩) main_call6_cst) (TRef.of (T := ⟨S4096, .f32⟩) main_call6_v2) (broadcastInDim S4096 ![] bcast_S_S4096),
    TRef.binary (TRef.of (T := ⟨S4096, .f32⟩) main_v31) (TRef.of (T := ⟨S4096, .f32⟩) main_call6_v2) (TRef.of (T := ⟨S4096, .f32⟩) main_call6_v3) subf,
    TRef.binary (TRef.of (T := ⟨S4096, .f32⟩) main_call6_v3) (TRef.of (T := ⟨S4096, .f32⟩) main_call6_v3) (TRef.of (T := ⟨S4096, .i1⟩) main_call6_v4) (cmpf .une),
    TRef.unary (TRef.of (T := ⟨S_, .f32⟩) main_call6_cst) (TRef.of (T := ⟨S4096, .f32⟩) main_call6_v5) (broadcastInDim S4096 ![] bcast_S_S4096),
    TRef.binary (TRef.of (T := ⟨S4096, .f32⟩) main_v31) (TRef.of (T := ⟨S4096, .f32⟩) main_call6_v5) (TRef.of (T := ⟨S4096, .f32⟩) main_call6_v6) addf,
    TRef.unary (TRef.of (T := ⟨S4096, .f32⟩) main_call6_v3) (TRef.of (T := ⟨S4096, .f32⟩) main_call6_v7) Host.absf,
    TRef.unary (TRef.of (T := ⟨S4096, .f32⟩) main_call6_v7) (TRef.of (T := ⟨S4096, .f32⟩) main_call6_v8) Host.negf,
    TRef.unary (TRef.of (T := ⟨S4096, .f32⟩) main_call6_v8) (TRef.of (T := ⟨S4096, .f32⟩) main_call6_v9) Host.exp,
    TRef.unary (TRef.of (T := ⟨S4096, .f32⟩) main_call6_v9) (TRef.of (T := ⟨S4096, .f32⟩) main_call6_v10) Host.log1p,
    TRef.binary (TRef.of (T := ⟨S4096, .f32⟩) main_call6_v1) (TRef.of (T := ⟨S4096, .f32⟩) main_call6_v10) (TRef.of (T := ⟨S4096, .f32⟩) main_call6_v11) addf,
    TRef.ternary (TRef.of (T := ⟨S4096, .i1⟩) main_call6_v4) (TRef.of (T := ⟨S4096, .f32⟩) main_call6_v6) (TRef.of (T := ⟨S4096, .f32⟩) main_call6_v11) (TRef.of (T := ⟨S4096, .f32⟩) main_v32) select ]

/-- Operations 118–129. -/
abbrev ops8 : List (HloOp τ sig (Elt F)) :=
  [ binary main_v22 main_v32 main_v33 (addf : (⟨S4096, .f32⟩ : BufTy).Contents (Elt F) → (⟨S4096, .f32⟩ : BufTy).Contents (Elt F) → (⟨S4096, .f32⟩ : BufTy).Contents (Elt F)),
    nullary main_cst_7 (constant S_ .f32 0x00000000#32),
    TRef.unary (TRef.of (T := ⟨S_, .f32⟩) main_cst_7) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.ternary (TRef.of (T := ⟨S4096, .i1⟩) main_v3) (TRef.of (T := ⟨S4096, .f32⟩) main_v33) (TRef.of (T := ⟨S4096, .f32⟩) main_call7_v1) (TRef.of (T := ⟨S4096, .f32⟩) main_v34) select,
    nullary main_cst_8 (constant S_ .f32 0x00000000#32),
    binary main_v34 main_cst_8 main_v35 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v7 main_v36 (sitofp .f32 : (⟨S_, .i32⟩ : BufTy).Contents (Elt F) → (⟨S_, .f32⟩ : BufTy).Contents (Elt F)),
    binary main_v35 main_v36 main_v37 (Host.divf : (⟨S_, .f32⟩ : BufTy).Contents (Elt F) → (⟨S_, .f32⟩ : BufTy).Contents (Elt F) → (⟨S_, .f32⟩ : BufTy).Contents (Elt F)),
    nullary main_cst_9 (constant S_ .f32 0x40000000#32),
    binary main_v16 main_cst_9 main_v38 (Host.divf : (⟨S_, .f32⟩ : BufTy).Contents (Elt F) → (⟨S_, .f32⟩ : BufTy).Contents (Elt F) → (⟨S_, .f32⟩ : BufTy).Contents (Elt F)),
    binary main_v37 main_v38 main_v39 (addf : (⟨S_, .f32⟩ : BufTy).Contents (Elt F) → (⟨S_, .f32⟩ : BufTy).Contents (Elt F) → (⟨S_, .f32⟩ : BufTy).Contents (Elt F)) ]

/-- The list is the stretches in order. -/
theorem ops_split : (ops (F := F)) = ops1 ++ (ops2 ++ (ops3 ++ (ops4 ++ (ops5 ++ (ops6 ++ (ops7 ++ ops8)))))) := rfl

/-! ## What each stretch leaves -/

set_option maxRecDepth 65536 in
set_option maxHeartbeats 4000000 in
theorem stretch1 (x0 : (⟨S2x2048x50257, .f32⟩ : BufTy).Contents (Elt F)) (x1 : (⟨S2x2048, .i32⟩ : BufTy).Contents (Elt F)) (W : Valuation τ sig (Elt F))
    (h_arg0 : W (Proc.devRef .tc main_arg0) = x0) (h_arg1 : W (Proc.devRef .tc main_arg1) = x1)  :
    after (ops1 (F := F)) W (Proc.devRef .tc main_v0) = val_main_v0 (F := F) x0
      ∧ after (ops1 (F := F)) W (Proc.devRef .tc main_v3) = val_main_v3 (F := F) x1
      ∧ after (ops1 (F := F)) W (Proc.devRef .tc main_v4) = val_main_v4 (F := F) x1
      ∧ after (ops1 (F := F)) W (Proc.devRef .tc main_v7) = val_main_v7 (F := F) x1 := by
  refine ⟨?_, ?_, ?_, ?_⟩
  · after_results_simp
    simp only [h_arg0, h_arg1, TRef.ofBuf, TRef.toBuf, cast_eq, val_main_v0, val_main_v1, val_main_c, val_main_v2, val_main_v3, val_main_c_0, val_main_call0_v0, val_main_call0_v1, val_main_v4, val_main_v5, val_main_c_1, val_main_v6, val_main_c_2, val_main_v7]
    try rfl
  · after_results_simp
    simp only [h_arg0, h_arg1, TRef.ofBuf, TRef.toBuf, cast_eq, val_main_v0, val_main_v1, val_main_c, val_main_v2, val_main_v3, val_main_c_0, val_main_call0_v0, val_main_call0_v1, val_main_v4, val_main_v5, val_main_c_1, val_main_v6, val_main_c_2, val_main_v7]
    try rfl
  · after_results_simp
    simp only [h_arg0, h_arg1, TRef.ofBuf, TRef.toBuf, cast_eq, val_main_v0, val_main_v1, val_main_c, val_main_v2, val_main_v3, val_main_c_0, val_main_call0_v0, val_main_call0_v1, val_main_v4, val_main_v5, val_main_c_1, val_main_v6, val_main_c_2, val_main_v7]
    try rfl
  · after_results_simp
    simp only [h_arg0, h_arg1, TRef.ofBuf, TRef.toBuf, cast_eq, val_main_v0, val_main_v1, val_main_c, val_main_v2, val_main_v3, val_main_c_0, val_main_call0_v0, val_main_call0_v1, val_main_v4, val_main_v5, val_main_c_1, val_main_v6, val_main_c_2, val_main_v7]
    try rfl

set_option maxRecDepth 65536 in
set_option maxHeartbeats 4000000 in
theorem stretch2 (x0 : (⟨S2x2048x50257, .f32⟩ : BufTy).Contents (Elt F)) (x1 : (⟨S2x2048, .i32⟩ : BufTy).Contents (Elt F)) (W : Valuation τ sig (Elt F))
    (h_v0 : W (Proc.devRef .tc main_v0) = val_main_v0 (F := F) x0) (h_v3 : W (Proc.devRef .tc main_v3) = val_main_v3 (F := F) x1) (h_v4 : W (Proc.devRef .tc main_v4) = val_main_v4 (F := F) x1) (h_v7 : W (Proc.devRef .tc main_v7) = val_main_v7 (F := F) x1) :
    after (ops2 (F := F)) W (Proc.devRef .tc main_v0) = val_main_v0 (F := F) x0
      ∧ after (ops2 (F := F)) W (Proc.devRef .tc main_v3) = val_main_v3 (F := F) x1
      ∧ after (ops2 (F := F)) W (Proc.devRef .tc main_v4) = val_main_v4 (F := F) x1
      ∧ after (ops2 (F := F)) W (Proc.devRef .tc main_v7) = val_main_v7 (F := F) x1
      ∧ after (ops2 (F := F)) W (Proc.devRef .tc main_v8) = val_main_v8 (F := F) x0 := by
  refine ⟨?_, ?_, ?_, ?_, ?_⟩
  · after_results_simp
    exact h_v0
  · after_results_simp
    exact h_v3
  · after_results_simp
    exact h_v4
  · after_results_simp
    exact h_v7
  · after_results_simp
    simp only [h_v0, TRef.ofBuf, TRef.toBuf, cast_eq, val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v8]
    try rfl

set_option maxRecDepth 65536 in
set_option maxHeartbeats 4000000 in
theorem stretch3 (x0 : (⟨S2x2048x50257, .f32⟩ : BufTy).Contents (Elt F)) (x1 : (⟨S2x2048, .i32⟩ : BufTy).Contents (Elt F)) (W : Valuation τ sig (Elt F))
    (h_v4 : W (Proc.devRef .tc main_v4) = val_main_v4 (F := F) x1) (h_v8 : W (Proc.devRef .tc main_v8) = val_main_v8 (F := F) x0) (h_v0 : W (Proc.devRef .tc main_v0) = val_main_v0 (F := F) x0) (h_v3 : W (Proc.devRef .tc main_v3) = val_main_v3 (F := F) x1) (h_v7 : W (Proc.devRef .tc main_v7) = val_main_v7 (F := F) x1) :
    after (ops3 (F := F)) W (Proc.devRef .tc main_v0) = val_main_v0 (F := F) x0
      ∧ after (ops3 (F := F)) W (Proc.devRef .tc main_v3) = val_main_v3 (F := F) x1
      ∧ after (ops3 (F := F)) W (Proc.devRef .tc main_v4) = val_main_v4 (F := F) x1
      ∧ after (ops3 (F := F)) W (Proc.devRef .tc main_v7) = val_main_v7 (F := F) x1
      ∧ after (ops3 (F := F)) W (Proc.devRef .tc main_v10) = val_main_v10 (F := F) x0 x1 := by
  refine ⟨?_, ?_, ?_, ?_, ?_⟩
  · after_results_simp
    exact h_v0
  · after_results_simp
    exact h_v3
  · after_results_simp
    exact h_v4
  · after_results_simp
    exact h_v7
  · after_results_simp
    simp only [h_v4, h_v8, TRef.ofBuf, TRef.toBuf, cast_eq, val_main_v9, val_main_call2_c, val_main_call2_v0, val_main_call2_v1, val_main_call2_c_0, val_main_call2_v2, val_main_call2_v3, val_main_call2_v4, val_main_call2_v5, val_main_call2_c_1, val_main_call2_c_2, val_main_call2_v6, val_main_call2_v7, val_main_call2_v8, val_main_call2_v9, val_main_call2_v10, val_main_call2_v11, val_main_call2_c_3, val_main_call2_v12, val_main_call2_v13, val_main_call2_cst, val_main_call2_v14, val_main_v10]
    try rfl

set_option maxRecDepth 65536 in
set_option maxHeartbeats 4000000 in
theorem stretch4 (x0 : (⟨S2x2048x50257, .f32⟩ : BufTy).Contents (Elt F)) (x1 : (⟨S2x2048, .i32⟩ : BufTy).Contents (Elt F)) (W : Valuation τ sig (Elt F))
    (h_v10 : W (Proc.devRef .tc main_v10) = val_main_v10 (F := F) x0 x1) (h_v3 : W (Proc.devRef .tc main_v3) = val_main_v3 (F := F) x1) (h_v7 : W (Proc.devRef .tc main_v7) = val_main_v7 (F := F) x1) (h_v0 : W (Proc.devRef .tc main_v0) = val_main_v0 (F := F) x0) (h_v4 : W (Proc.devRef .tc main_v4) = val_main_v4 (F := F) x1) :
    after (ops4 (F := F)) W (Proc.devRef .tc main_v0) = val_main_v0 (F := F) x0
      ∧ after (ops4 (F := F)) W (Proc.devRef .tc main_v3) = val_main_v3 (F := F) x1
      ∧ after (ops4 (F := F)) W (Proc.devRef .tc main_v4) = val_main_v4 (F := F) x1
      ∧ after (ops4 (F := F)) W (Proc.devRef .tc main_v7) = val_main_v7 (F := F) x1
      ∧ after (ops4 (F := F)) W (Proc.devRef .tc main_v16) = val_main_v16 (F := F) x0 x1 := by
  refine ⟨?_, ?_, ?_, ?_, ?_⟩
  · after_results_simp
    exact h_v0
  · after_results_simp
    exact h_v3
  · after_results_simp
    exact h_v4
  · after_results_simp
    exact h_v7
  · after_results_simp
    simp only [h_v10, h_v3, h_v7, TRef.ofBuf, TRef.toBuf, cast_eq, val_main_v11, val_main_v12, val_main_cst, val_main_call3_v0, val_main_call3_v1, val_main_v13, val_main_cst_3, val_main_v14, val_main_v15, val_main_v16]
    try rfl

set_option maxRecDepth 65536 in
set_option maxHeartbeats 4000000 in
theorem stretch5 (x0 : (⟨S2x2048x50257, .f32⟩ : BufTy).Contents (Elt F)) (x1 : (⟨S2x2048, .i32⟩ : BufTy).Contents (Elt F)) (W : Valuation τ sig (Elt F))
    (h_v4 : W (Proc.devRef .tc main_v4) = val_main_v4 (F := F) x1) (h_v0 : W (Proc.devRef .tc main_v0) = val_main_v0 (F := F) x0) (h_v3 : W (Proc.devRef .tc main_v3) = val_main_v3 (F := F) x1) (h_v7 : W (Proc.devRef .tc main_v7) = val_main_v7 (F := F) x1) (h_v16 : W (Proc.devRef .tc main_v16) = val_main_v16 (F := F) x0 x1) :
    after (ops5 (F := F)) W (Proc.devRef .tc main_v0) = val_main_v0 (F := F) x0
      ∧ after (ops5 (F := F)) W (Proc.devRef .tc main_v3) = val_main_v3 (F := F) x1
      ∧ after (ops5 (F := F)) W (Proc.devRef .tc main_v4) = val_main_v4 (F := F) x1
      ∧ after (ops5 (F := F)) W (Proc.devRef .tc main_v7) = val_main_v7 (F := F) x1
      ∧ after (ops5 (F := F)) W (Proc.devRef .tc main_v16) = val_main_v16 (F := F) x0 x1
      ∧ after (ops5 (F := F)) W (Proc.devRef .tc main_v18) = val_main_v18 (F := F) x0 x1 := by
  refine ⟨?_, ?_, ?_, ?_, ?_, ?_⟩
  · after_results_simp
    exact h_v0
  · after_results_simp
    exact h_v3
  · after_results_simp
    exact h_v4
  · after_results_simp
    exact h_v7
  · after_results_simp
    exact h_v16
  · after_results_simp
    simp only [h_v4, h_v0, TRef.ofBuf, TRef.toBuf, cast_eq, val_main_v17, val_main_call4_c, val_main_call4_v0, val_main_call4_v1, val_main_call4_c_0, val_main_call4_v2, val_main_call4_v3, val_main_call4_v4, val_main_call4_v5, val_main_call4_c_1, val_main_call4_c_2, val_main_call4_v6, val_main_call4_v7, val_main_call4_v8, val_main_call4_v9, val_main_call4_v10, val_main_call4_v11, val_main_call4_c_3, val_main_call4_v12, val_main_call4_v13, val_main_call4_cst, val_main_call4_v14, val_main_v18]
    try rfl

set_option maxRecDepth 65536 in
set_option maxHeartbeats 4000000 in
theorem stretch6 (x0 : (⟨S2x2048x50257, .f32⟩ : BufTy).Contents (Elt F)) (x1 : (⟨S2x2048, .i32⟩ : BufTy).Contents (Elt F)) (W : Valuation τ sig (Elt F))
    (h_v18 : W (Proc.devRef .tc main_v18) = val_main_v18 (F := F) x0 x1) (h_v4 : W (Proc.devRef .tc main_v4) = val_main_v4 (F := F) x1) (h_v0 : W (Proc.devRef .tc main_v0) = val_main_v0 (F := F) x0) (h_v3 : W (Proc.devRef .tc main_v3) = val_main_v3 (F := F) x1) (h_v7 : W (Proc.devRef .tc main_v7) = val_main_v7 (F := F) x1) (h_v16 : W (Proc.devRef .tc main_v16) = val_main_v16 (F := F) x0 x1) :
    after (ops6 (F := F)) W (Proc.devRef .tc main_v3) = val_main_v3 (F := F) x1
      ∧ after (ops6 (F := F)) W (Proc.devRef .tc main_v7) = val_main_v7 (F := F) x1
      ∧ after (ops6 (F := F)) W (Proc.devRef .tc main_v16) = val_main_v16 (F := F) x0 x1
      ∧ after (ops6 (F := F)) W (Proc.devRef .tc main_v22) = val_main_v22 (F := F) x0 x1
      ∧ after (ops6 (F := F)) W (Proc.devRef .tc main_v31) = val_main_v31 (F := F) x0 x1 := by
  refine ⟨?_, ?_, ?_, ?_, ?_⟩
  · after_results_simp
    exact h_v3
  · after_results_simp
    exact h_v7
  · after_results_simp
    exact h_v16
  · after_results_simp
    simp only [h_v18, h_v4, h_v0, TRef.ofBuf, TRef.toBuf, cast_eq, val_main_v19, val_main_cst_4, val_main_v20, val_main_v21, val_main_v22, val_main_v23, val_main_v24, val_main_v25, val_main_v26, val_main_v27, val_main_v28, val_main_cst_5, val_main_call5_v0, val_main_call5_v1, val_main_v29, val_main_cst_6, val_main_v30, val_main_v31]
    try rfl
  · after_results_simp
    simp only [h_v18, h_v4, h_v0, TRef.ofBuf, TRef.toBuf, cast_eq, val_main_v19, val_main_cst_4, val_main_v20, val_main_v21, val_main_v22, val_main_v23, val_main_v24, val_main_v25, val_main_v26, val_main_v27, val_main_v28, val_main_cst_5, val_main_call5_v0, val_main_call5_v1, val_main_v29, val_main_cst_6, val_main_v30, val_main_v31]
    try rfl

set_option maxRecDepth 65536 in
set_option maxHeartbeats 4000000 in
theorem stretch7 (x0 : (⟨S2x2048x50257, .f32⟩ : BufTy).Contents (Elt F)) (x1 : (⟨S2x2048, .i32⟩ : BufTy).Contents (Elt F)) (W : Valuation τ sig (Elt F))
    (h_v31 : W (Proc.devRef .tc main_v31) = val_main_v31 (F := F) x0 x1) (h_v3 : W (Proc.devRef .tc main_v3) = val_main_v3 (F := F) x1) (h_v7 : W (Proc.devRef .tc main_v7) = val_main_v7 (F := F) x1) (h_v16 : W (Proc.devRef .tc main_v16) = val_main_v16 (F := F) x0 x1) (h_v22 : W (Proc.devRef .tc main_v22) = val_main_v22 (F := F) x0 x1) :
    after (ops7 (F := F)) W (Proc.devRef .tc main_v3) = val_main_v3 (F := F) x1
      ∧ after (ops7 (F := F)) W (Proc.devRef .tc main_v7) = val_main_v7 (F := F) x1
      ∧ after (ops7 (F := F)) W (Proc.devRef .tc main_v16) = val_main_v16 (F := F) x0 x1
      ∧ after (ops7 (F := F)) W (Proc.devRef .tc main_v22) = val_main_v22 (F := F) x0 x1
      ∧ after (ops7 (F := F)) W (Proc.devRef .tc main_v32) = val_main_v32 (F := F) x0 x1 := by
  refine ⟨?_, ?_, ?_, ?_, ?_⟩
  · after_results_simp
    exact h_v3
  · after_results_simp
    exact h_v7
  · after_results_simp
    exact h_v16
  · after_results_simp
    exact h_v22
  · after_results_simp
    simp only [h_v31, TRef.ofBuf, TRef.toBuf, cast_eq, val_main_call6_cst, val_main_call6_v0, val_main_call6_v1, val_main_call6_v2, val_main_call6_v3, val_main_call6_v4, val_main_call6_v5, val_main_call6_v6, val_main_call6_v7, val_main_call6_v8, val_main_call6_v9, val_main_call6_v10, val_main_call6_v11, val_main_v32]
    try rfl

set_option maxRecDepth 65536 in
set_option maxHeartbeats 4000000 in
theorem stretch8 (x0 : (⟨S2x2048x50257, .f32⟩ : BufTy).Contents (Elt F)) (x1 : (⟨S2x2048, .i32⟩ : BufTy).Contents (Elt F)) (W : Valuation τ sig (Elt F))
    (h_v22 : W (Proc.devRef .tc main_v22) = val_main_v22 (F := F) x0 x1) (h_v32 : W (Proc.devRef .tc main_v32) = val_main_v32 (F := F) x0 x1) (h_v3 : W (Proc.devRef .tc main_v3) = val_main_v3 (F := F) x1) (h_v7 : W (Proc.devRef .tc main_v7) = val_main_v7 (F := F) x1) (h_v16 : W (Proc.devRef .tc main_v16) = val_main_v16 (F := F) x0 x1)  :
    after (ops8 (F := F)) W (Proc.devRef .tc main_v39) = val_main_v39 (F := F) x0 x1 := by
  after_results_simp
  simp only [h_v22, h_v32, h_v3, h_v7, h_v16, TRef.ofBuf, TRef.toBuf, cast_eq, val_main_v33, val_main_cst_7, val_main_call7_v0, val_main_call7_v1, val_main_v34, val_main_cst_8, val_main_v35, val_main_v36, val_main_v37, val_main_cst_9, val_main_v38, val_main_v39]
  try rfl

/-! ## The fold, read -/

set_option maxRecDepth 65536 in
set_option maxHeartbeats 4000000 in
/-- No operation writes the first argument. -/
theorem fold_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 65536 in
set_option maxHeartbeats 4000000 in
/-- No operation writes the second argument. -/
theorem fold_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

/-- The fold at the result buffer is the last stage: the eight stretches chained. -/
theorem fold_result (m : (ℓ : Loc nD τ sig) → Buf (Elt F) ℓ) (c : Dev nD) :
    after (ops (F := F)) (launchContents m c) (Proc.devRef .tc main_v39)
      = val_main_v39 (F := F) (m ((c.tc : Thread nD τ).loc main_arg0)) (m ((c.tc : Thread nD τ).loc main_arg1)) := by
  rw [ops_split]
  simp only [StableHlo.after_append]
  obtain ⟨a0, a3, a4, a7⟩ := stretch1 (m ((c.tc : Thread nD τ).loc main_arg0)) (m ((c.tc : Thread nD τ).loc main_arg1)) (launchContents m c) rfl rfl
  obtain ⟨b0, b3, b4, b7, b8⟩ := stretch2 _ (m ((c.tc : Thread nD τ).loc main_arg1)) _ a0 a3 a4 a7
  obtain ⟨c0, c3, c4, c7, c10⟩ := stretch3 _ _ _ b4 b8 b0 b3 b7
  obtain ⟨d0, d3, d4, d7, d16⟩ := stretch4 _ _ _ c10 c3 c7 c0 c4
  obtain ⟨e0, e3, e4, e7, e16, e18⟩ := stretch5 _ _ _ d4 d0 d3 d7 d16
  obtain ⟨f3, f7, f16, f22, f31⟩ := stretch6 _ _ _ e18 e4 e0 e3 e7 e16
  obtain ⟨g3, g7, g16, g22, g32⟩ := stretch7 _ _ _ f31 f3 f7 f16 f22
  exact stretch8 _ _ _ g22 g32 g3 g7 g16

/-- THE REFERENCE'S RUN: it ends with its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = val_main_v39 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (fold_result m c), (h c main_arg0).trans (fold_arg0 m c),
    (h c main_arg1).trans (fold_arg1 m c)⟩) (run_fold m ρ)

end Cert.ReferenceIdeal.RefFold

end
-- ==== Proof.RealLaws.lean ====
/-
  The laws on the extended reals that join the two programs, each on real arguments.

  * a finite sum of reals, read in the extended reals, is the sum of the readings;
  * `log Σ exp` of a row of reals is a real, and subtracting any real `M` inside the exponentials
    lowers it by exactly `M`: `log Σ_k e^{x_k - M} = log Σ_k e^{x_k} - M`;
  * the stable form of `log(1 + e^d)` is a real for a real `d`, whichever way `-|d|` is spelt;
  * a comparison "x differs from x" is false;
  * a maximum over a finite family whose members are reals or `-∞`, not all `-∞`, is a real;
  * the mean over the counted rows of `a + ½ c` is the mean of `a` plus half the mean of `c`.
-/
import Idealize.ShloMosaic.PureOps.Ideal
import Idealize.ShloMosaic.PureOps.Ideal.Laws
import Mathlib.Analysis.SpecialFunctions.Log.Basic
import Mathlib.Data.EReal.Basic

noncomputable section

namespace ManifoldLoss

open Idealize.ShloMosaic

/-- A finite sum of reals read in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the exponentials of a row of reals is the real sum. -/
theorem sum_exp_coe {ι : Type} [Fintype ι] (x : ι → ℝ) :
    (∑ k : ι, Ideal.exp ((x k : ℝ) : EReal)) = ((∑ k : ι, Real.exp (x k) : ℝ) : EReal) := by
  rw [coe_sum]; exact Finset.sum_congr rfl fun k _ => Ideal.exp_coe _

theorem sum_exp_pos {ι : Type} [Fintype ι] [Nonempty ι] (x : ι → ℝ) : 0 < ∑ k : ι, Real.exp (x k) :=
  Finset.sum_pos (fun k _ => Real.exp_pos _) Finset.univ_nonempty

/-- `log Σ exp` of a row of reals. -/
theorem log_sum_exp_coe {ι : Type} [Fintype ι] [Nonempty ι] (x : ι → ℝ) :
    Ideal.log (∑ k : ι, Ideal.exp ((x k : ℝ) : EReal)) = ((Real.log (∑ k : ι, Real.exp (x k)) : ℝ) : EReal) := by
  rw [sum_exp_coe, Ideal.log_coe, if_neg (not_le.mpr (sum_exp_pos x))]

/-- The shifted form: `log (0 + Σ_k e^{x_k - M}) = log Σ_k e^{x_k} - M`. -/
theorem log_sum_exp_shift_coe {ι : Type} [Fintype ι] [Nonempty ι] (x : ι → ℝ) (M : ℝ) :
    Ideal.log (0 + ∑ k : ι, Ideal.exp (((x k : ℝ) : EReal) - ((M : ℝ) : EReal)))
      = ((Real.log (∑ k : ι, Real.exp (x k)) - M : ℝ) : EReal) := by
  have h1 : ∀ k : ι, Ideal.exp (((x k : ℝ) : EReal) - ((M : ℝ) : EReal)) = ((Real.exp (x k - M) : ℝ) : EReal) := fun k => by
    rw [← EReal.coe_sub]; exact Ideal.exp_coe _
  rw [zero_add, Finset.sum_congr rfl fun k _ => h1 k, ← coe_sum, Ideal.log_coe,
    if_neg (not_le.mpr (Finset.sum_pos (fun k _ => Real.exp_pos _) Finset.univ_nonempty))]
  congr 1
  have h2 : (∑ k : ι, Real.exp (x k - M)) = (∑ k : ι, Real.exp (x k)) / Real.exp M := by
    rw [Finset.sum_div]; exact Finset.sum_congr rfl fun k _ => Real.exp_sub _ _
  rw [h2, Real.log_div (sum_exp_pos x).ne' (Real.exp_pos M).ne', Real.log_exp]

/-- The reading of a maximum of two reals. -/
theorem coe_max' (a b : ℝ) : max ((a : ℝ) : EReal) ((b : ℝ) : EReal) = ((max a b : ℝ) : EReal) :=
  (EReal.coe_strictMono.monotone.map_max).symm

/-- "x differs from x" is false, ordered or not. -/
theorem cmp_one_self (x : EReal) : Ideal.cmp .one x x = 0#1 := by simp [Ideal.cmp]
theorem cmp_une_self (x : EReal) : Ideal.cmp .une x x = 0#1 := by simp [Ideal.cmp]

/-- The real `log(1 + e^d)` in its stable form. -/
def softplusReal (d : ℝ) : ℝ := max d 0 + Real.log (1 + Real.exp (-|d|))

theorem abs_coe_form (d : ℝ) : max (((d : ℝ) : EReal) - 0) (-(((d : ℝ) : EReal) - 0)) = ((|d| : ℝ) : EReal) := by
  rw [sub_zero, ← EReal.coe_neg, coe_max']; rfl

theorem log1p_exp_coe (r : ℝ) : Ideal.log1p (Ideal.exp ((r : ℝ) : EReal)) = ((Real.log (1 + Real.exp r) : ℝ) : EReal) := by
  unfold Ideal.log1p
  rw [Ideal.exp_coe, ← EReal.coe_one, ← EReal.coe_add, Ideal.log_coe,
    if_neg (not_le.mpr (by have := Real.exp_pos r; linarith))]

/-- The kernel's spelling, on a real. -/
theorem softplus_zero_sub_coe (d : ℝ) :
    max ((d : ℝ) : EReal) 0 + Ideal.log1p (Ideal.exp (0 - max (((d : ℝ) : EReal) - 0) (-(((d : ℝ) : EReal) - 0))))
      = ((softplusReal d : ℝ) : EReal) := by
  rw [abs_coe_form, zero_sub, ← EReal.coe_neg, log1p_exp_coe, ← EReal.coe_zero, coe_max', ← EReal.coe_add]
  rfl

/-- The reference's spelling, on a real. -/
theorem softplus_neg_coe (d : ℝ) :
    max ((d : ℝ) : EReal) 0 + Ideal.log1p (Ideal.exp (-(max (((d : ℝ) : EReal) - 0) (-(((d : ℝ) : EReal) - 0)))))
      = ((softplusReal d : ℝ) : EReal) := by
  rw [abs_coe_form, ← EReal.coe_neg, log1p_exp_coe, ← EReal.coe_zero, coe_max', ← EReal.coe_add]
  rfl

/-- A maximum from `-∞` over a finite family of members below `+∞`, one of them above `-∞`, is a real. -/
theorem fold_max_real {ι : Type} [Fintype ι] (f : ι → EReal) (htop : ∀ v, f v ≠ ⊤) (v₀ : ι) (hbot : f v₀ ≠ ⊥) :
    ∃ r : ℝ, (Finset.univ : Finset ι).fold max ⊥ f = ((r : ℝ) : EReal) := by
  have h1 : (Finset.univ : Finset ι).fold max ⊥ f ≠ ⊤ := by
    apply ne_of_lt
    rw [Finset.fold_max_lt]
    exact ⟨bot_lt_top, fun v _ => lt_top_iff_ne_top.mpr (htop v)⟩
  have h2 : (Finset.univ : Finset ι).fold max ⊥ f ≠ ⊥ := by
    apply ne_of_gt
    rw [Finset.lt_fold_max]
    exact Or.inr ⟨v₀, Finset.mem_univ _, bot_lt_iff_ne_bot.mpr hbot⟩
  exact ⟨_, (EReal.coe_toReal h1 h2).symm⟩

end ManifoldLoss

end
-- ==== Proof.Consts.lean ====
/-
  The values of the float literals the two programs carry, as extended reals: 1, 1/2, 2 and -∞.
-/
import Idealize.ShloMosaic.PureOps.Ideal
import Idealize.ShloMosaic.PureOps.Ideal.Laws

noncomputable section

namespace ManifoldLoss

open Idealize.ShloMosaic

/-- `0x3F800000` is 1.0 -/
theorem ofBits_one : Ideal.ofBits .f32 0x3F800000#32 = ((1 : ℝ) : EReal) := by
  simp [Ideal.ofBits, Ideal.ieee, -EReal.coe_mul]; norm_num

/-- `0x3F000000` is 0.5 -/
theorem ofBits_half : Ideal.ofBits .f32 0x3F000000#32 = ((1 / 2 : ℝ) : EReal) := by
  simp [Ideal.ofBits, Ideal.ieee, -EReal.coe_mul]; norm_num

/-- `0x40000000` is 2.0 -/
theorem ofBits_two : Ideal.ofBits .f32 0x40000000#32 = ((2 : ℝ) : EReal) := by
  simp [Ideal.ofBits, Ideal.ieee, -EReal.coe_mul]; norm_num

/-- `0xFF800000` is -∞ -/
theorem ofBits_neg_inf : Ideal.ofBits .f32 0xFF800000#32 = ⊥ := by
  simp [Ideal.ofBits, Ideal.ieee]

end ManifoldLoss

end
-- ==== Proof.RowMath.lean ====
/-
  One row of the loss on real logits and an admissible label.

  A label is admissible when it is the "ignore" word `-1` or a column number below 50257. Then the
  safe label is a column number `s`; exactly column `s` is hot; the masked sum over the row picks
  `x_s`; the background maximum, taken over at least one real entry, is a real; so what the kernel
  stores for the row is the real `a + ½ c` (or `0` on an ignored row), with
  `a = (1 - x_s)² + softplus(bg - x_s)` and `c = log Σ exp x - x_s`.
  The last lemma is the law that joins the two programs' totals: over the rows that count, the mean of
  `a + ½ c` is the mean of `a` plus half the mean of `c`.
-/
import proofs.«402159_j15109694947924_3_alg».proof.Proof.RowSpec
import proofs.«402159_j15109694947924_3_alg».proof.Proof.RealLaws
import proofs.«402159_j15109694947924_3_alg».proof.Proof.Consts
import Idealize.ShloMosaic.Lib.StableHlo.Predicate

noncomputable section

namespace ManifoldLoss

open Idealize.ShloMosaic Idealize.ShloMosaic.ValueIdx

/-- The number of column `v`, as the programs' iota writes it. -/
def colNum (v : Fin 50257) : BitVec 32 := BitVec.ofNat 32 v.val

/-- A label the loss is defined on: "ignore", or a column. -/
def LabelOk (t : BitVec 32) : Prop := t = 4294967295#32 ∨ t.toNat < 50257

/-- A select on a one-bit word that is 1 takes the first value, -/
theorem select_of_eq_one {α : Type} {c : BitVec 1} (h : c = 1#1) (a b : α) : Scalar.select c a b = a := by
  subst h; exact select_one a b

/-- and on a word that is not 1 (so 0) the second. -/
theorem select_of_ne_one {α : Type} {c : BitVec 1} (h : c ≠ 1#1) (a b : α) : Scalar.select c a b = b := by
  rcases BitVec.eq_zero_or_eq_one c with h0 | h1
  · subst h0; exact select_zero a b
  · exact absurd h1 h

/-- "the label is not the ignore word", as the printed compare says it. -/
theorem valid_iff (t : BitVec 32) : IntOp.cmpi .ne t 4294967295#32 = 1#1 ↔ t ≠ 4294967295#32 := by
  unfold IntOp.cmpi
  rw [StableHlo.Predicate.ofBool_eq_one_iff]
  simp

theorem safeLabel_of_ne {t : BitVec 32} (h : t ≠ 4294967295#32) : safeLabel t = t := by
  unfold safeLabel
  exact select_of_eq_one ((valid_iff t).2 h) _ _

theorem safeLabel_ignore : safeLabel 4294967295#32 = 0#32 := by decide

/-- The safe label of an admissible label is a column number. -/
theorem safeLabel_lt {t : BitVec 32} (h : LabelOk t) : (safeLabel t).toNat < 50257 := by
  by_cases ht : t = 4294967295#32
  · subst ht; rw [safeLabel_ignore]; decide
  · rw [safeLabel_of_ne ht]
    rcases h with h | h
    · exact absurd h ht
    · exact h

/-- The printed range test, `-1 ≤ t` and `t < 50257` as signed words, says the label is admissible. -/
theorem labelOk_of_range {t : BitVec 32} (h1 : IntOp.cmpi .sge t 4294967295#32 = 1#1) (h2 : IntOp.cmpi .slt t 50257#32 = 1#1) :
    LabelOk t := by
  unfold IntOp.cmpi at h1 h2
  rw [StableHlo.Predicate.ofBool_eq_one_iff] at h1 h2
  have e1 : (4294967295#32 : BitVec 32).toInt ≤ t.toInt := by simpa [BitVec.sle] using h1
  have e2 : t.toInt < (50257#32 : BitVec 32).toInt := by simpa [BitVec.slt] using h2
  have c1 : (4294967295#32 : BitVec 32).toInt = -1 := by decide
  have c2 : (50257#32 : BitVec 32).toInt = 50257 := by decide
  rw [c1] at e1; rw [c2] at e2
  unfold LabelOk
  by_cases hneg : t.toInt = -1
  · left; apply BitVec.eq_of_toInt_eq; rw [hneg, c1]
  · right
    have hcond := BitVec.toInt_eq_toNat_cond t
    have hlt : t.toNat < 2 ^ 32 := t.isLt
    split at hcond <;> omega

/-- A column number is not negative, -/
theorem slt_zero_of_lt {s : BitVec 32} (hs : s.toNat < 50257) : IntOp.cmpi .slt s 0#32 = 0#1 := by
  rcases BitVec.eq_zero_or_eq_one (IntOp.cmpi .slt s 0#32) with h | h
  · exact h
  · have := (StableHlo.Predicate.slt_iff_toNat (a := s) (b := 0#32) (by omega) (by decide)).1 h
    simp at this

/-- is at least zero, -/
theorem sge_zero_of_lt {s : BitVec 32} (hs : s.toNat < 50257) : IntOp.cmpi .sge s 0#32 = 1#1 :=
  (StableHlo.Predicate.sge_iff_toNat (a := s) (b := 0#32) (by omega) (by decide)).2 (by simp)

/-- is at most the last column, -/
theorem sle_last_of_lt {s : BitVec 32} (hs : s.toNat < 50257) : IntOp.cmpi .sle s 50256#32 = 1#1 :=
  (StableHlo.Predicate.sle_iff_toNat (a := s) (b := 50256#32) (by omega) (by decide)).2 (by
    have : (50256#32 : BitVec 32).toNat = 50256 := by decide
    omega)

/-- and reads the same signed as unsigned. -/
theorem toInt_toNat_of_lt {s : BitVec 32} (hs : s.toNat < 50257) : s.toInt.toNat = s.toNat := by
  rw [StableHlo.Predicate.toInt_eq_toNat_of_lt (by omega)]; simp

/-- The safe label's column. -/
def safeCol (t : BitVec 32) : Fin 50257 := ⟨(safeLabel t).toNat % 50257, Nat.mod_lt _ (by norm_num)⟩

theorem safeCol_val {t : BitVec 32} (h : LabelOk t) : (safeCol t).val = (safeLabel t).toNat :=
  Nat.mod_eq_of_lt (safeLabel_lt h)

/-- Exactly the safe label's column is hot. -/
theorem hot_iff {t : BitVec 32} (h : LabelOk t) (v : Fin 50257) : hot colNum t v = 1#1 ↔ v = safeCol t := by
  unfold hot colNum
  rw [StableHlo.Predicate.cmpi_eq_iff]
  have hv : v.val < 2 ^ 32 := lt_trans v.isLt (by norm_num)
  constructor
  · intro e
    apply Fin.ext
    rw [safeCol_val h, ← e, BitVec.toNat_ofNat, Nat.mod_eq_of_lt hv]
  · intro e
    apply BitVec.eq_of_toNat_eq
    rw [BitVec.toNat_ofNat, Nat.mod_eq_of_lt hv, e, safeCol_val h]

/-- The masked sum over the row picks the safe label's logit. -/
theorem pickedSum_eq {t : BitVec 32} (h : LabelOk t) (x : Fin 50257 → EReal) : pickedSum x colNum t = x (safeCol t) := by
  unfold pickedSum
  rw [Finset.sum_eq_single (safeCol t)]
  · exact select_of_eq_one ((hot_iff h _).2 rfl) _ _
  · intro v _ hv; exact select_of_ne_one (fun hh => hv ((hot_iff h v).1 hh)) _ _
  · intro hh; exact absurd (Finset.mem_univ _) hh

/-- A column other than the safe label's. -/
def otherCol (t : BitVec 32) : Fin 50257 := if safeCol t = 0 then 1 else 0

theorem otherCol_ne (t : BitVec 32) : otherCol t ≠ safeCol t := by
  unfold otherCol
  split
  · rename_i e; rw [e]; decide
  · rename_i e; exact fun hh => e hh.symm

/-- The background maximum of a row of reals is a real. -/
theorem backgroundMax_real {t : BitVec 32} (h : LabelOk t) (l : Fin 50257 → ℝ) :
    ∃ r : ℝ, backgroundMax ⊥ ⊥ (fun v => ((l v : ℝ) : EReal)) colNum t = ((r : ℝ) : EReal) := by
  unfold backgroundMax
  refine fold_max_real _ (fun v => ?_) (otherCol t) ?_
  · rcases BitVec.eq_zero_or_eq_one (hot colNum t v) with h0 | h1
    · rw [h0, select_zero]; exact EReal.coe_ne_top _
    · rw [h1, select_one]; exact bot_ne_top
  · rw [select_of_ne_one fun hh => otherCol_ne t ((hot_iff h _).1 hh)]
    exact EReal.coe_ne_bot _

/-- The row maximum of a row of reals is a real. -/
theorem rowMax_real (l : Fin 50257 → ℝ) :
    ∃ r : ℝ, (Finset.univ : Finset (Fin 50257)).fold max ⊥ (fun v => ((l v : ℝ) : EReal)) = ((r : ℝ) : EReal) :=
  fold_max_real _ (fun _ => EReal.coe_ne_top _) 0 (EReal.coe_ne_bot _)

/-- The real background maximum. -/
def bgReal (l : Fin 50257 → ℝ) (t : BitVec 32) : ℝ := (backgroundMax ⊥ ⊥ (fun v => ((l v : ℝ) : EReal)) colNum t).toReal

theorem backgroundMax_coe {t : BitVec 32} (h : LabelOk t) (l : Fin 50257 → ℝ) :
    backgroundMax ⊥ ⊥ (fun v => ((l v : ℝ) : EReal)) colNum t = ((bgReal l t : ℝ) : EReal) := by
  obtain ⟨r, hr⟩ := backgroundMax_real h l
  unfold bgReal; rw [hr, EReal.toReal_coe]

/-- `(1 - x_s)² + softplus(bg - x_s)` -/
def rowA (l : Fin 50257 → ℝ) (t : BitVec 32) : ℝ :=
  (1 - l (safeCol t)) * (1 - l (safeCol t)) + softplusReal (bgReal l t - l (safeCol t))

/-- `log Σ exp x - x_s` -/
def rowC (l : Fin 50257 → ℝ) (t : BitVec 32) : ℝ :=
  Real.log (∑ v : Fin 50257, Real.exp (l v)) - l (safeCol t)

/-- WHAT THE KERNEL STORES for a row of reals under an admissible label. -/
theorem rowLossK_coe {t : BitVec 32} (h : LabelOk t) (l : Fin 50257 → ℝ) :
    rowLossK ((1 : ℝ) : EReal) ((1 / 2 : ℝ) : EReal) ⊥ ⊥ (fun v => ((l v : ℝ) : EReal)) colNum t
      = Scalar.select (IntOp.cmpi .ne t 4294967295#32) (((rowA l t + 1 / 2 * rowC l t : ℝ)) : EReal) 0 := by
  unfold rowLossK softplusK logSumExp
  rw [pickedSum_eq h, backgroundMax_coe h, cmp_one_self, select_zero, ← EReal.coe_sub (bgReal l t),
    softplus_zero_sub_coe, log_sum_exp_coe]
  simp only [← EReal.coe_sub, ← EReal.coe_mul, ← EReal.coe_add]
  rfl

/-- A selected real, or zero, is a real. -/
theorem select_coe (b : BitVec 1) (u : ℝ) :
    Scalar.select b ((u : ℝ) : EReal) 0 = (((if b = 1#1 then u else 0) : ℝ) : EReal) := by
  rcases BitVec.eq_zero_or_eq_one b with h0 | h1
  · subst h0; rw [select_zero, if_neg (by decide)]; rfl
  · subst h1; rw [select_one, if_pos rfl]

/-- THE MEAN LAW. Over the rows a mask selects, with a nonzero count `n`: the total of `a + ½ c` over `n` is the
    total of `a` over `n` plus half of the total of `c` over `n`. -/
theorem mean_split {ι : Type} [Fintype ι] (sel : ι → BitVec 1) (a c : ι → ℝ) (n : ℝ) (hn : n ≠ 0) :
    Ideal.div (0 + ∑ j : ι, Scalar.select (sel j) (((a j + 1 / 2 * c j : ℝ)) : EReal) 0) ((n : ℝ) : EReal)
      = Ideal.div (0 + ∑ j : ι, Scalar.select (sel j) ((a j : ℝ) : EReal) 0) ((n : ℝ) : EReal)
        + Ideal.div (Ideal.div (0 + ∑ j : ι, Scalar.select (sel j) ((c j : ℝ) : EReal) 0) ((n : ℝ) : EReal)) ((2 : ℝ) : EReal) := by
  simp only [select_coe, zero_add, ← coe_sum]
  rw [Ideal.div_coe hn, Ideal.div_coe hn, Ideal.div_coe hn, ← EReal.coe_mul, ← EReal.coe_mul, ← EReal.coe_mul,
    Ideal.div_coe (by norm_num : (2 : ℝ) ≠ 0), ← EReal.coe_mul, ← EReal.coe_add]
  congr 1
  have e : ∀ j, (if sel j = 1#1 then a j + 1 / 2 * c j else 0)
      = (if sel j = 1#1 then a j else 0) + 1 / 2 * (if sel j = 1#1 then c j else 0) := by
    intro j; split <;> ring
  rw [Finset.sum_congr rfl fun j _ => e j, Finset.sum_add_distrib, ← Finset.mul_sum]
  ring

end ManifoldLoss

end
-- ==== Proof.LibTakeAlongAxis.lean ====
/-
  `jnp.take_along_axis(x, idx, axis=1)` of a rank-2 table `x : [N, C]` at one position per row,
  read at an index.

  It prints as a `stablehlo.gather` whose start indices are `idx` as `[N, 1, 1]`, with the table's
  axis 0 a batching axis (paired with the indices' axis 0), axis 1 collapsed and start-indexed, slice
  sizes `[1, 1]`, the index vector on axis 2 and the result `[N, 1]`. Result element `(n, 0)` is row
  `n` of the table at the column `idx[n, 0, 0]`, read as a signed integer and clamped into
  `[0, C - 1]` as StableHLO clamps every start index.
-/
import Idealize.ShloMosaic.PureOps.ShapeOps
import Idealize.ShloMosaic.Lib.ValueIdx

noncomputable section

namespace Idealize.ShloMosaic.TakeAlongAxis

open Idealize.ShloMosaic Idealize.ShloMosaic.ValueIdx

variable {α : Type}

/-- Index `(n, 0, 0)` of the start indices. -/
abbrev ixN00 {N : Nat} (n : Fin N) : (⟨3, ![N, 1, 1]⟩ : Shape).Idx :=
  fun a => match a with | ⟨0, _⟩ => n | ⟨1, _⟩ => (0 : Fin 1) | ⟨2, _⟩ => (0 : Fin 1)

/-- THE READ: with the printed dimension numbers (each hypothesis is `rfl` on a program's record), result
    `(n, 0)` is the table at row `n` and the clamped column `idx[n, 0, 0]`. -/
theorem gather_apply {N C w : Nat} (hC : 0 < C)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec (⟨3, ![N, 1, 1]⟩ : Shape) w) (n : Fin N) :
    Host.gather d x idx (ix2 n (0 : Fin 1))
      = x (ix2 n (⟨min (idx (ixN00 n)).toInt.toNat (C - 1), by omega⟩ : Fin C)) := by
  have hsl : d.sliceSizes 1 = 1 := d.slice_collapsed 1 (by rw [hcoll]; exact List.mem_singleton.mpr rfl)
  obtain ⟨od, cd, ob, sb, sm, iv, ss, wf⟩ := d
  simp only at hoff hcoll hob hsb hsim hivd hsl
  subst hoff hcoll hob hsb hsim hivd
  unfold Host.gather
  refine congrArg x (funext fun a => Fin.ext ?_)
  match a with
  | ⟨0, _⟩ =>
    show GatherDims.start _ _ idx _ + GatherDims.batchCoord _ _ _ + GatherDims.offCoord _ _ _ = n.val
    simp [GatherDims.start, GatherDims.batchCoord, GatherDims.offCoord, GatherDims.siCoord, GatherDims.sKept, GatherDims.siKept, GatherDims.batchDims, Shape.kept]
    rfl
  | ⟨1, _⟩ =>
    show GatherDims.start _ _ idx _ + GatherDims.batchCoord _ _ _ + GatherDims.offCoord _ _ _ = min (idx (ixN00 n)).toInt.toNat (C - 1)
    simp [GatherDims.start, GatherDims.batchCoord, GatherDims.offCoord, GatherDims.siCoord, GatherDims.sKept, GatherDims.siKept, GatherDims.batchDims, Shape.kept, hsl]
    congr 3
    refine congrArg idx ?_
    funext b
    apply Fin.ext
    fin_cases b
    · simp [GatherDims.siIdx, GatherDims.siCoord, GatherDims.siKept, GatherDims.batchDims, Shape.kept]
      rfl
    · simp [GatherDims.siIdx, GatherDims.siCoord, GatherDims.siKept, GatherDims.batchDims, Shape.kept]
    · simp [GatherDims.siIdx]

end Idealize.ShloMosaic.TakeAlongAxis

end
-- ==== Proof.RefValue.lean ====
/-
  The reference program's result as a function of its two arguments, row by row.

  (RefReadP reads the reference one operation at a time; here the operations are put together per row.)
  For row `j` with an admissible label: `take_along_axis` finds its index in range, so it reads row `j`
  at the safe label's column — of the logits for `x_t`, of the log-softmax for the cross-entropy;
  the log-softmax at `(j, v)` is `(x_v - M) - log Σ_k e^{x_k - M}` with `M` the row maximum; the
  background maximum is the maximum of the row with the hot column at `-∞`; softplus is the stable form.
-/
import proofs.«402159_j15109694947924_3_alg».proof.Proof.RefReadP
import proofs.«402159_j15109694947924_3_alg».proof.Proof.RowMath
import proofs.«402159_j15109694947924_3_alg».proof.Proof.LibTakeAlongAxis
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx ManifoldLoss

/-- the reshaped logits and labels -/
abbrev lgR (x0 : (⟨S2x2048x50257, .f32⟩ : BufTy).Contents (Elt Ideal)) : S4096x50257.Idx → EReal := val_main_v0 (F := Ideal) x0
abbrev tgR (x1 : (⟨S2x2048, .i32⟩ : BufTy).Contents (Elt Ideal)) : S4096.Idx → BitVec 32 := val_main_v1 (F := Ideal) x1

/-! ## Indices -/

theorem idx_v9 (j : Fin 4096) (q : Fin 1) : idx_main_v9 (ix2 j q) = ix1 j := funext fun a => Fin.ext (by match a with | ⟨0, _⟩ => rfl)
theorem idx_v17 (j : Fin 4096) (q : Fin 1) : idx_main_v17 (ix2 j q) = ix1 j := funext fun a => Fin.ext (by match a with | ⟨0, _⟩ => rfl)
theorem idx_v25 (j : Fin 4096) (q : Fin 1) : idx_main_v25 (ix2 j q) = ix1 j := funext fun a => Fin.ext (by match a with | ⟨0, _⟩ => rfl)
theorem idx_call1_v3 (j : Fin 4096) (q : Fin 1) : idx_main_call1_v3 (ix2 j q) = ix1 j := funext fun a => Fin.ext (by match a with | ⟨0, _⟩ => rfl)
theorem idx_call1_v8 (j : Fin 4096) (q : Fin 1) : idx_main_call1_v8 (ix2 j q) = ix1 j := funext fun a => Fin.ext (by match a with | ⟨0, _⟩ => rfl)
theorem idx_call1_v4 (j : Fin 4096) (v : Fin 50257) : idx_main_call1_v4 (ix2 j v) = ix2 j (0 : Fin 1) := funext fun a => Fin.ext (by match a with | ⟨0, _⟩ => rfl | ⟨1, _⟩ => rfl)
theorem idx_call1_v10 (j : Fin 4096) (v : Fin 50257) : idx_main_call1_v10 (ix2 j v) = ix2 j (0 : Fin 1) := funext fun a => Fin.ext (by match a with | ⟨0, _⟩ => rfl | ⟨1, _⟩ => rfl)
theorem idx_v27 (j : Fin 4096) (v : Fin 50257) : idx_main_v27 (ix2 j v) = ix2 j (0 : Fin 1) := funext fun a => Fin.ext (by match a with | ⟨0, _⟩ => rfl | ⟨1, _⟩ => rfl)
theorem idx_v26 (j : Fin 4096) (v : Fin 50257) : idx_main_v26 (ix2 j v) = ix2 (0 : Fin 1) v := funext fun a => Fin.ext (by match a with | ⟨0, _⟩ => rfl | ⟨1, _⟩ => rfl)
theorem idx_v24 (v : Fin 50257) : idx_main_v24 (ix2 (0 : Fin 1) v) = ix1 v := funext fun a => Fin.ext (by match a with | ⟨0, _⟩ => rfl)
theorem idx_call1_v7 (j : Fin 4096) (k : Fin 50257) : idx_main_call1_v7 (ix1 j) k = ix2 j k := funext fun a => Fin.ext (by match a with | ⟨0, _⟩ => rfl | ⟨1, _⟩ => rfl)
theorem idx_v11 (j : Fin 4096) : idx_main_v11 (ix1 j) = ix2 j (0 : Fin 1) := funext fun a => Fin.ext (by match a with | ⟨0, _⟩ => exact Nat.div_one _ | ⟨1, _⟩ => rfl)
theorem idx_v19 (j : Fin 4096) : idx_main_v19 (ix1 j) = ix2 j (0 : Fin 1) := funext fun a => Fin.ext (by match a with | ⟨0, _⟩ => exact Nat.div_one _ | ⟨1, _⟩ => rfl)
theorem idx_call2_v5 (j : Fin 4096) : idx_main_call2_v5 (TakeAlongAxis.ixN00 j) = ix2 j (0 : Fin 1) :=
  funext fun a => Fin.ext (by match a with | ⟨0, _⟩ => (show ((j.val * 1 + 0) * 1 + 0) / 1 = j.val; omega) | ⟨1, _⟩ => rfl)
theorem idx_call4_v5 (j : Fin 4096) : idx_main_call4_v5 (TakeAlongAxis.ixN00 j) = ix2 j (0 : Fin 1) :=
  funext fun a => Fin.ext (by match a with | ⟨0, _⟩ => (show ((j.val * 1 + 0) * 1 + 0) / 1 = j.val; omega) | ⟨1, _⟩ => rfl)

/-- Row `j` of the [4096, 50257] logits with column `k` put back. -/
theorem lift_row (h : S4096x50257.Reduces [1] S4096) (j : Fin 4096) (k : Fin (S4096x50257.size 1)) :
    h.lift (ix1 j) k = ix2 j (⟨k.val, k.isLt⟩ : Fin 50257) := by
  funext c; apply Fin.ext
  fin_cases c <;> rfl

/-- A fold over an index set of one element is the operation on that element and the start. -/
theorem fold_one {α : Type} {n : Nat} (hn : n = 1) (op : α → α → α) [Std.Commutative op] [Std.Associative op] (b : α) (f : Fin n → α) :
    (Finset.univ : Finset (Fin n)).fold op b f = op (f ⟨0, by omega⟩) b := by
  subst hn
  rw [Finset.univ_unique, Finset.fold_singleton]
  rfl

/-! ## The labels -/

/-- Row `j`'s safe label. -/
theorem safe_at (x1 : (⟨S2x2048, .i32⟩ : BufTy).Contents (Elt Ideal)) (j : Fin 4096) : val_main_v4 (F := Ideal) x1 (ix1 j) = safeLabel (tgR x1 (ix1 j)) := by
  rw [val_main_v4_apply, val_main_v3_apply, val_main_v2_apply, val_main_c_apply, val_main_call0_v1_apply,
    val_main_call0_v0_apply, val_main_c_0_apply]
  rfl

/-- Row `j` counts. -/
theorem valid_at (x1 : (⟨S2x2048, .i32⟩ : BufTy).Contents (Elt Ideal)) (j : Fin 4096) :
    val_main_v3 (F := Ideal) x1 (ix1 j) = IntOp.cmpi .ne (tgR x1 (ix1 j)) 4294967295#32 := by
  rw [val_main_v3_apply, val_main_v2_apply, val_main_c_apply]

/-! ## take_along_axis, twice -/

/-- take_along_axis (call 4): the bounds pass, the start index is the safe label, and the gather reads row `j` at that column. -/
theorem take4_idx (x1 : (⟨S2x2048, .i32⟩ : BufTy).Contents (Elt Ideal)) (j : Fin 4096) (hs : (safeLabel (tgR x1 (ix1 j))).toNat < 50257) :
    val_main_call4_v5 (F := Ideal) x1 (TakeAlongAxis.ixN00 j) = safeLabel (tgR x1 (ix1 j)) := by
  rw [val_main_call4_v5_apply, idx_call4_v5, val_main_call4_v4_apply, val_main_call4_v1_apply, val_main_v17_apply, idx_v17, safe_at,
    val_main_call4_v0_apply, val_main_call4_c_apply, slt_zero_of_lt hs, select_zero]

theorem take4_ok (x1 : (⟨S2x2048, .i32⟩ : BufTy).Contents (Elt Ideal)) (j : Fin 4096) (hs : (safeLabel (tgR x1 (ix1 j))).toNat < 50257) :
    val_main_call4_v12 (F := Ideal) x1 (ix2 j (0 : Fin 1)) = 1#1 := by
  have hR : S4096x1x1.Reduces [2] S4096x1 := by decide
  unfold val_main_call4_v12
  rw [Host.reduce_eq_fold_single IntOp.andi _ _ reducesTo_S4096x1x1_S4096x1_d2 hR h_S_]
  have hl : hR.lift (ix2 j (0 : Fin 1)) (⟨0, Nat.one_pos⟩ : Fin (S4096x1x1.size 2)) = TakeAlongAxis.ixN00 j := by
    funext c; apply Fin.ext
    fin_cases c <;> rfl
  rw [fold_one (n := S4096x1x1.size 2) rfl, Function.comp_apply, hl, val_main_call4_c_3_apply]
  rw [val_main_call4_v11_apply, val_main_call4_v7_apply, val_main_call4_v10_apply, take4_idx x1 j hs,
    val_main_call4_v6_apply, val_main_call4_c_2_apply, val_main_call4_v9_apply, val_main_call4_v8_apply, val_main_call4_c_1_apply,
    sge_zero_of_lt hs, sle_last_of_lt hs]
  decide

theorem take4_at (x0 : (⟨S2x2048x50257, .f32⟩ : BufTy).Contents (Elt Ideal)) (x1 : (⟨S2x2048, .i32⟩ : BufTy).Contents (Elt Ideal)) (j : Fin 4096) (hs : (safeLabel (tgR x1 (ix1 j))).toNat < 50257) :
    val_main_v19 (F := Ideal) x0 x1 (ix1 j) = lgR x0 (ix2 j (safeCol (tgR x1 (ix1 j)))) := by
  rw [val_main_v19_apply, idx_v19, val_main_v18_apply, take4_ok x1 j hs, select_one]
  unfold val_main_call4_v13
  rw [TakeAlongAxis.gather_apply (by norm_num) _ rfl rfl rfl rfl rfl rfl]
  refine congrArg _ (congrArg (ix2 j) (Fin.ext ?_))
  show min (val_main_call4_v5 (F := Ideal) x1 (TakeAlongAxis.ixN00 j)).toInt.toNat (50257 - 1) = (safeLabel (tgR x1 (ix1 j))).toNat % 50257
  rw [take4_idx x1 j hs, toInt_toNat_of_lt hs, Nat.mod_eq_of_lt hs]
  omega

/-- take_along_axis (call 2): the bounds pass, the start index is the safe label, and the gather reads row `j` at that column. -/
theorem take2_idx (x1 : (⟨S2x2048, .i32⟩ : BufTy).Contents (Elt Ideal)) (j : Fin 4096) (hs : (safeLabel (tgR x1 (ix1 j))).toNat < 50257) :
    val_main_call2_v5 (F := Ideal) x1 (TakeAlongAxis.ixN00 j) = safeLabel (tgR x1 (ix1 j)) := by
  rw [val_main_call2_v5_apply, idx_call2_v5, val_main_call2_v4_apply, val_main_call2_v1_apply, val_main_v9_apply, idx_v9, safe_at,
    val_main_call2_v0_apply, val_main_call2_c_apply, slt_zero_of_lt hs, select_zero]

theorem take2_ok (x1 : (⟨S2x2048, .i32⟩ : BufTy).Contents (Elt Ideal)) (j : Fin 4096) (hs : (safeLabel (tgR x1 (ix1 j))).toNat < 50257) :
    val_main_call2_v12 (F := Ideal) x1 (ix2 j (0 : Fin 1)) = 1#1 := by
  have hR : S4096x1x1.Reduces [2] S4096x1 := by decide
  unfold val_main_call2_v12
  rw [Host.reduce_eq_fold_single IntOp.andi _ _ reducesTo_S4096x1x1_S4096x1_d2 hR h_S_]
  have hl : hR.lift (ix2 j (0 : Fin 1)) (⟨0, Nat.one_pos⟩ : Fin (S4096x1x1.size 2)) = TakeAlongAxis.ixN00 j := by
    funext c; apply Fin.ext
    fin_cases c <;> rfl
  rw [fold_one (n := S4096x1x1.size 2) rfl, Function.comp_apply, hl, val_main_call2_c_3_apply]
  rw [val_main_call2_v11_apply, val_main_call2_v7_apply, val_main_call2_v10_apply, take2_idx x1 j hs,
    val_main_call2_v6_apply, val_main_call2_c_2_apply, val_main_call2_v9_apply, val_main_call2_v8_apply, val_main_call2_c_1_apply,
    sge_zero_of_lt hs, sle_last_of_lt hs]
  decide

theorem take2_at (x0 : (⟨S2x2048x50257, .f32⟩ : BufTy).Contents (Elt Ideal)) (x1 : (⟨S2x2048, .i32⟩ : BufTy).Contents (Elt Ideal)) (j : Fin 4096) (hs : (safeLabel (tgR x1 (ix1 j))).toNat < 50257) :
    val_main_v11 (F := Ideal) x0 x1 (ix1 j) = val_main_v8 (F := Ideal) x0 (ix2 j (safeCol (tgR x1 (ix1 j)))) := by
  rw [val_main_v11_apply, idx_v11, val_main_v10_apply, take2_ok x1 j hs, select_one]
  unfold val_main_call2_v13
  rw [TakeAlongAxis.gather_apply (by norm_num) _ rfl rfl rfl rfl rfl rfl]
  refine congrArg _ (congrArg (ix2 j) (Fin.ext ?_))
  show min (val_main_call2_v5 (F := Ideal) x1 (TakeAlongAxis.ixN00 j)).toInt.toNat (50257 - 1) = (safeLabel (tgR x1 (ix1 j))).toNat % 50257
  rw [take2_idx x1 j hs, toInt_toNat_of_lt hs, Nat.mod_eq_of_lt hs]
  omega

/-! ## log-softmax, the background maximum, softplus -/

/-- `-∞` as the reference's reductions start from it. -/
abbrev ninf : EReal := Ideal.ofBits .f32 0xFF800000#32

/-- The row maximum as the reference takes it (the maximum with `-∞` of the fold from `-∞`). -/
def rowMaxR (x0 : (⟨S2x2048x50257, .f32⟩ : BufTy).Contents (Elt Ideal)) (j : Fin 4096) : EReal :=
  max ninf ((Finset.univ : Finset (Fin 50257)).fold max ninf (fun k => lgR x0 (ix2 j k)))

theorem rowmax_at (x0 : (⟨S2x2048x50257, .f32⟩ : BufTy).Contents (Elt Ideal)) (j : Fin 4096) : val_main_call1_v2 (F := Ideal) x0 (ix1 j) = rowMaxR x0 j := by
  have hR : S4096x50257.Reduces [1] S4096 := by decide
  rw [val_main_call1_v2_apply, val_main_call1_v1_apply, val_main_call1_cst_0_apply]
  unfold val_main_call1_v0
  rw [Host.reduce_eq_fold_single FloatOps.maximumf _ _ reducesTo_S4096x50257_S4096_d1 hR h_S_, val_main_call1_cst_apply]
  unfold rowMaxR
  refine congrArg (max ninf) ?_
  exact congrArg (fun f => (Finset.univ : Finset (Fin 50257)).fold max ninf f) (funext fun k => congrArg (lgR x0) (lift_row hR j k))

/-- The log-softmax at `(j, v)`. -/
theorem logp_at (x0 : (⟨S2x2048x50257, .f32⟩ : BufTy).Contents (Elt Ideal)) (j : Fin 4096) (v : Fin 50257) :
    val_main_v8 (F := Ideal) x0 (ix2 j v)
      = (lgR x0 (ix2 j v) - rowMaxR x0 j) - Ideal.log (0 + ∑ k : Fin 50257, Ideal.exp (lgR x0 (ix2 j k) - rowMaxR x0 j)) := by
  rw [val_main_v8_apply, val_main_call1_v10_apply, idx_call1_v10, val_main_call1_v9_apply, val_main_call1_v8_apply, idx_call1_v8,
    val_main_call1_v7_apply, val_main_call1_cst_1_apply]
  simp only [idx_call1_v7, val_main_call1_v6_apply, val_main_call1_v5_apply, val_main_call1_v4_apply, idx_call1_v4,
    val_main_call1_v3_apply, idx_call1_v3, rowmax_at]
  rw [show (FloatOps.ofBits (F := Ideal) .f32 0x00000000#32 : EReal) = 0 from Ideal.ofBits_zero_f32]
  generalize rowMaxR x0 j = M
  simp only [Ideal.subf_def, Ideal.hostUnary_log_def, Ideal.hostUnary_exp_def]

/-- The background maximum of row `j`. -/
theorem bg_at (x0 : (⟨S2x2048x50257, .f32⟩ : BufTy).Contents (Elt Ideal)) (x1 : (⟨S2x2048, .i32⟩ : BufTy).Contents (Elt Ideal)) (j : Fin 4096) :
    val_main_v30 (F := Ideal) x0 x1 (ix1 j) = backgroundMax ninf ninf (fun k => lgR x0 (ix2 j k)) colNum (tgR x1 (ix1 j)) := by
  have hR : S4096x50257.Reduces [1] S4096 := by decide
  unfold val_main_v30
  rw [Host.reduce_eq_fold_single FloatOps.maximumf _ _ reducesTo_S4096x50257_S4096_d1 hR h_S_, val_main_cst_6_apply]
  unfold backgroundMax
  refine congrArg (fun f => (Finset.univ : Finset (Fin 50257)).fold max ninf f) (funext fun k => ?_)
  rw [Function.comp_apply, lift_row hR j k, val_main_v29_apply, val_main_v28_apply, val_main_v26_apply, idx_v26, val_main_v24_apply,
    idx_v24, val_main_v23_apply, val_main_v27_apply, idx_v27, val_main_v25_apply, idx_v25, safe_at, val_main_call5_v1_apply,
    val_main_call5_v0_apply, val_main_cst_5_apply]
  rfl

/-- softplus of row `j`'s margin. -/
theorem softplus_at (x0 : (⟨S2x2048x50257, .f32⟩ : BufTy).Contents (Elt Ideal)) (x1 : (⟨S2x2048, .i32⟩ : BufTy).Contents (Elt Ideal)) (j : Fin 4096) :
    val_main_v32 (F := Ideal) x0 x1 (ix1 j) = softplusR (val_main_v31 (F := Ideal) x0 x1 (ix1 j)) := by
  rw [val_main_v32_apply, val_main_call6_v4_apply, val_main_call6_v6_apply, val_main_call6_v11_apply, val_main_call6_v1_apply,
    val_main_call6_v10_apply, val_main_call6_v9_apply, val_main_call6_v8_apply, val_main_call6_v7_apply, val_main_call6_v3_apply,
    val_main_call6_v0_apply, val_main_call6_v2_apply, val_main_call6_v5_apply, val_main_call6_cst_apply,
    show (FloatOps.ofBits (F := Ideal) .f32 0x00000000#32 : EReal) = 0 from Ideal.ofBits_zero_f32]
  unfold softplusR
  generalize val_main_v31 (F := Ideal) x0 x1 (ix1 j) = d
  simp only [Ideal.cmpf_def, Ideal.subf_def, Ideal.addf_def, Ideal.maximumf_def, Ideal.hostUnary_log1p_def, Ideal.hostUnary_exp_def,
    Ideal.hostNegf_def, Ideal.hostAbsf_def, Ideal.negf_def, Ideal.absf_def]

/-! ## The two per-row terms the reference sums -/

/-- The reference's literal `1.0`. -/
abbrev oneR : EReal := FloatOps.ofBits (F := Ideal) .f32 0x3F800000#32

/-- `(1 - x_t)² + softplus(bg - x_t)` on a row that counts, else `0`. -/
theorem keep_at (x0 : (⟨S2x2048x50257, .f32⟩ : BufTy).Contents (Elt Ideal)) (x1 : (⟨S2x2048, .i32⟩ : BufTy).Contents (Elt Ideal)) (j : Fin 4096) (hs : (safeLabel (tgR x1 (ix1 j))).toNat < 50257) :
    val_main_v34 (F := Ideal) x0 x1 (ix1 j)
      = Scalar.select (IntOp.cmpi .ne (tgR x1 (ix1 j)) 4294967295#32)
          ((oneR - lgR x0 (ix2 j (safeCol (tgR x1 (ix1 j))))) * (oneR - lgR x0 (ix2 j (safeCol (tgR x1 (ix1 j)))))
            + softplusR (backgroundMax ninf ninf (fun k => lgR x0 (ix2 j k)) colNum (tgR x1 (ix1 j)) - lgR x0 (ix2 j (safeCol (tgR x1 (ix1 j))))))
          0 := by
  rw [val_main_v34_apply, valid_at, val_main_v33_apply, val_main_v22_apply, val_main_v21_apply, val_main_v20_apply, val_main_cst_4_apply,
    softplus_at, val_main_v31_apply, bg_at, take4_at x0 x1 j hs, val_main_call7_v1_apply, val_main_call7_v0_apply, val_main_cst_7_apply,
    show (FloatOps.ofBits (F := Ideal) .f32 0x00000000#32 : EReal) = 0 from Ideal.ofBits_zero_f32]
  simp only [Ideal.subf_def, Ideal.mulf_def, Ideal.addf_def]

/-- `-log_softmax` at the label on a row that counts, else `0`. -/
theorem ce_at (x0 : (⟨S2x2048x50257, .f32⟩ : BufTy).Contents (Elt Ideal)) (x1 : (⟨S2x2048, .i32⟩ : BufTy).Contents (Elt Ideal)) (j : Fin 4096) (hs : (safeLabel (tgR x1 (ix1 j))).toNat < 50257) :
    val_main_v13 (F := Ideal) x0 x1 (ix1 j)
      = Scalar.select (IntOp.cmpi .ne (tgR x1 (ix1 j)) 4294967295#32) (-(val_main_v8 (F := Ideal) x0 (ix2 j (safeCol (tgR x1 (ix1 j)))))) 0 := by
  rw [val_main_v13_apply, valid_at, val_main_v12_apply, take2_at x0 x1 j hs, val_main_call3_v1_apply, val_main_call3_v0_apply, val_main_cst_apply,
    show (FloatOps.ofBits (F := Ideal) .f32 0x00000000#32 : EReal) = 0 from Ideal.ofBits_zero_f32]
  simp only [Ideal.hostNegf_def, Ideal.negf_def]

/-- The rows as `Fin 4096`. -/
def rowEquiv : Fin 4096 ≃ S4096.Idx where
  toFun := ix1
  invFun i := ⟨(i 0).val, (i 0).isLt⟩
  left_inv _ := rfl
  right_inv i := (eq_ix1 i).symm

theorem sum_rows (f : S4096.Idx → EReal) : ∑ i : S4096.Idx, f i = ∑ j : Fin 4096, f (ix1 j) :=
  (Equiv.sum_comp rowEquiv f).symm

/-- The count of the rows that count, at least one: what the totals are divided by. -/
abbrev countR (x1 : (⟨S2x2048, .i32⟩ : BufTy).Contents (Elt Ideal)) (i : S_.Idx) : EReal := FloatOps.sitofp (F := Ideal) .f32 (val_main_v7 (F := Ideal) x1 i)

/-! ## On real logits and admissible labels -/

section Real

variable (x0 : (⟨S2x2048x50257, .f32⟩ : BufTy).Contents (Elt Ideal)) (x1 : (⟨S2x2048, .i32⟩ : BufTy).Contents (Elt Ideal)) (l : Fin 4096 → Fin 50257 → ℝ)
  (hl : ∀ j v, lgR x0 (ix2 j v) = ((l j v : ℝ) : EReal)) (hlab : ∀ j, LabelOk (tgR x1 (ix1 j)))

include hl hlab

theorem keep_real (j : Fin 4096) :
    val_main_v34 (F := Ideal) x0 x1 (ix1 j)
      = Scalar.select (IntOp.cmpi .ne (tgR x1 (ix1 j)) 4294967295#32) (((rowA (l j) (tgR x1 (ix1 j)) : ℝ)) : EReal) 0 := by
  rw [keep_at x0 x1 j (safeLabel_lt (hlab j)), funext (hl j), hl j]
  unfold softplusR
  rw [show oneR = ((1 : ℝ) : EReal) from ofBits_one, show ninf = ⊥ from ofBits_neg_inf, backgroundMax_coe (hlab j), ← EReal.coe_sub (bgReal _ _),
    cmp_une_self, select_zero, softplus_neg_coe]
  simp only [← EReal.coe_sub, ← EReal.coe_mul, ← EReal.coe_add]
  rfl

theorem ce_real (j : Fin 4096) :
    val_main_v13 (F := Ideal) x0 x1 (ix1 j)
      = Scalar.select (IntOp.cmpi .ne (tgR x1 (ix1 j)) 4294967295#32) (((rowC (l j) (tgR x1 (ix1 j)) : ℝ)) : EReal) 0 := by
  rw [ce_at x0 x1 j (safeLabel_lt (hlab j)), logp_at]
  obtain ⟨M, hM⟩ : ∃ M : ℝ, rowMaxR x0 j = ((M : ℝ) : EReal) := by
    obtain ⟨r, hr⟩ := rowMax_real (l j)
    refine ⟨r, ?_⟩
    unfold rowMaxR
    rw [funext (hl j), show ninf = ⊥ from ofBits_neg_inf, hr]
    exact max_eq_right bot_le
  rw [hM, hl j, Finset.sum_congr rfl fun k _ => by rw [hl j k], log_sum_exp_shift_coe]
  simp only [← EReal.coe_sub, ← EReal.coe_neg]
  refine congrArg (fun r : ℝ => Scalar.select (IntOp.cmpi .ne (tgR x1 (ix1 j)) 4294967295#32) ((r : ℝ) : EReal) 0) ?_
  unfold rowC
  ring

/-- THE REFERENCE'S RESULT on real logits and admissible labels: the mean of `a` plus half the mean of `c`. -/
theorem ref_total (i : S_.Idx) :
    val_main_v39 (F := Ideal) x0 x1 i
      = Ideal.div (0 + ∑ j : Fin 4096, Scalar.select (IntOp.cmpi .ne (tgR x1 (ix1 j)) 4294967295#32) (((rowA (l j) (tgR x1 (ix1 j)) : ℝ)) : EReal) 0) (countR x1 i)
        + Ideal.div (Ideal.div (0 + ∑ j : Fin 4096, Scalar.select (IntOp.cmpi .ne (tgR x1 (ix1 j)) 4294967295#32) (((rowC (l j) (tgR x1 (ix1 j)) : ℝ)) : EReal) 0) (countR x1 i))
            (Ideal.ofBits .f32 0x40000000#32) := by
  rw [val_main_v39_apply, val_main_v37_apply, val_main_v38_apply, val_main_v35_apply, val_main_v36_apply, val_main_v16_apply,
    val_main_v14_apply, val_main_v15_apply, val_main_cst_9_apply, val_main_cst_8_apply, val_main_cst_3_apply,
    show (FloatOps.ofBits (F := Ideal) .f32 0x00000000#32 : EReal) = 0 from Ideal.ofBits_zero_f32, sum_rows, sum_rows]
  simp only [keep_real x0 x1 l hl hlab, ce_real x0 x1 l hl hlab, Ideal.addf_def, Ideal.hostDivf_def, Ideal.ofBits_def]

end Real

end Cert.ReferenceIdeal.RefValue

end
-- ==== Proof.Bridge.lean ====
/-
  The two programs compute one function.

  On logits that are reals and labels that are admissible, the kernel program's result
  (`kernelResult`: the total of the stored rows over the count) and the reference's last stage
  (`val_main_v39`: the mean of `a` plus half the mean of `c`) are equal: row by row both are built from
  the same reals `rowA` and `rowC`, the count is one term in both, and the mean law joins the totals.
-/
import proofs.«402159_j15109694947924_3_alg».proof.Proof.KernelValue
import proofs.«402159_j15109694947924_3_alg».proof.Proof.RefValue
import Idealize.ShloMosaic.PureOps.IdealRules

noncomputable section

namespace Cert.Bridge

open Idealize.ShloMosaic Idealize.ShloMosaic.ValueIdx ManifoldLoss
open Cert.KernelIdeal.ArrValue Cert.KernelIdeal.RowValue
open Cert.ReferenceIdeal.RefValue Cert.ReferenceIdeal.ReadP

/-- The kernel's named fill is `-∞`. -/
theorem fill_bot : fillK = ⊥ := IdealRules.named_const.ideal_named_scalar _ _ _ _ rfl

/-- `1 ≤ max(count, 1)` as a signed word. -/
theorem maxsi_one_pos (x : BitVec 32) : 1 ≤ (IntOp.maxsi x 1#32).toInt := by
  unfold IntOp.maxsi
  split
  · rename_i h
    have h' : (1#32 : BitVec 32).toInt < x.toInt := by simpa [BitVec.slt] using h
    have c1 : (1#32 : BitVec 32).toInt = 1 := by decide
    omega
  · decide

/-- What the kernel stores for row `a`, on real logits and admissible labels. -/
theorem kernel_row (x0 : FVec Ideal Cert.KernelIdeal.S2x2048x50257 .f32) (x1 : IVec Cert.KernelIdeal.S2x2048 32) (l : Fin 4096 → Fin 50257 → ℝ)
    (hl : ∀ j v, lgR x0 (ix2 j v) = ((l j v : ℝ) : EReal)) (hlab : ∀ j, LabelOk (tgR x1 (ix1 j))) (a : Fin 4096) :
    lossArr (lgR x0) (shapeCast Cert.KernelIdeal.S4096x1 (tgR x1) Cert.KernelIdeal.Gen.shapeCasts_S4096_S4096x1)
        (shapeCast Cert.KernelIdeal.S1x50257 (iotaInDim Cert.KernelIdeal.S50257 32 0) Cert.KernelIdeal.Gen.shapeCasts_S50257_S1x50257) (ix2 a (0 : Fin 1))
      = Scalar.select (IntOp.cmpi .ne (tgR x1 (ix1 a)) 4294967295#32)
          (((rowA (l a) (tgR x1 (ix1 a)) + 1 / 2 * rowC (l a) (tgR x1 (ix1 a)) : ℝ)) : EReal) 0 := by
  unfold lossArr
  have hrow : (fun v : Fin 50257 => lgR x0 (ix2 (rowOf (ix2 a (0 : Fin 1))) v)) = fun v => ((l a v : ℝ) : EReal) := funext (hl a)
  have hcol : (fun v : Fin 50257 => shapeCast Cert.KernelIdeal.S1x50257 (iotaInDim Cert.KernelIdeal.S50257 32 0) Cert.KernelIdeal.Gen.shapeCasts_S50257_S1x50257 (ix2 (0 : Fin 1) v)) = colNum := by
    funext v
    rw [shapeCast_apply _ _ (ix2 (0 : Fin 1) v) (ix1 v) (by rw [Shape.rowMajor_val_two, Shape.rowMajor_val_one]; show v.val = 0 * 50257 + v.val; omega)]
    rfl
  have hT : shapeCast Cert.KernelIdeal.S4096x1 (tgR x1) Cert.KernelIdeal.Gen.shapeCasts_S4096_S4096x1 (ix2 (rowOf (ix2 a (0 : Fin 1))) (0 : Fin 1)) = tgR x1 (ix1 a) :=
    shapeCast_apply _ _ _ (ix1 a) (by rw [Shape.rowMajor_val_two, Shape.rowMajor_val_one]; show a.val = a.val * 1 + 0; omega)
  rw [hrow, hcol, hT, show oneK = ((1 : ℝ) : EReal) from ofBits_one, show halfK = ((1 / 2 : ℝ) : EReal) from ofBits_half,
    fill_bot, show loK = ⊥ from ofBits_neg_inf]
  exact rowLossK_coe (hlab a) (l a)

/-- The kernel's total: the host sum of the [4096, 1] result is `0` plus the sum over the rows. -/
theorem total_rows (g : FVec Ideal Cert.KernelIdeal.S4096x1 .f32) (i : Cert.KernelIdeal.S_.Idx) :
    Host.reduceAdd g (constant Cert.KernelIdeal.S_ .f32 0x00000000#32) Cert.KernelIdeal.Gen.reducesTo_S4096x1_S_d0_1 Cert.KernelIdeal.Gen.h_S_ i
      = 0 + ∑ a : Fin 4096, g (ix2 a (0 : Fin 1)) := by
  simp only [Host.reduceAdd, Ideal.hostReduceAdd_def]
  rw [Ideal.hostReduceAdd_total _ (fun b => b.elim0), sum_idx2]
  simp only [Fin.sum_univ_one]
  rw [show (constant (F := Ideal) Cert.KernelIdeal.S_ .f32 0x00000000#32 (Shape.Idx.first Cert.KernelIdeal.Gen.h_S_) : EReal) = 0 from Ideal.ofBits_zero_f32]

/-- THE TWO RESULTS ARE EQUAL on real logits and admissible labels. -/
theorem result_eq (x0 : FVec Ideal Cert.KernelIdeal.S2x2048x50257 .f32) (x1 : IVec Cert.KernelIdeal.S2x2048 32) (hreal : ∀ i, ∃ r : ℝ, x0 i = ((r : ℝ) : EReal)) (hlab0 : ∀ j, LabelOk (x1 j)) :
    kernelResult x0 x1 = val_main_v39 (F := Ideal) x0 x1 := by
  have hl' : ∀ (j : Fin 4096) (v : Fin 50257), ∃ r : ℝ, lgR x0 (ix2 j v) = ((r : ℝ) : EReal) := fun j v => by
    dsimp only [lgR, val_main_v0, shapeCast]
    exact hreal _
  choose l hl using hl'
  have hlab : ∀ j : Fin 4096, LabelOk (tgR x1 (ix1 j)) := fun j => by
    dsimp only [tgR, val_main_v1, shapeCast]
    exact hlab0 _
  funext i
  rw [ref_total x0 x1 l hl hlab i]
  unfold kernelResult
  show Ideal.div (Host.reduceAdd (F := Ideal) (lossArr (lgR x0) (shapeCast Cert.KernelIdeal.S4096x1 (tgR x1) Cert.KernelIdeal.Gen.shapeCasts_S4096_S4096x1)
        (shapeCast Cert.KernelIdeal.S1x50257 (iotaInDim Cert.KernelIdeal.S50257 32 0) Cert.KernelIdeal.Gen.shapeCasts_S50257_S1x50257))
      (constant (F := Ideal) Cert.KernelIdeal.S_ .f32 0x00000000#32) Cert.KernelIdeal.Gen.reducesTo_S4096x1_S_d0_1 Cert.KernelIdeal.Gen.h_S_ i)
    (countR x1 i) = _
  rw [total_rows, Finset.sum_congr rfl fun a _ => kernel_row x0 x1 l hl hlab a]
  have hn : (((val_main_v7 (F := Ideal) x1 i).toInt : ℝ)) ≠ 0 := by
    have h1 : 1 ≤ (val_main_v7 (F := Ideal) x1 i).toInt := by
      rw [val_main_v7_apply, val_main_c_2_apply]; exact maxsi_one_pos _
    have : (0 : ℝ) < ((val_main_v7 (F := Ideal) x1 i).toInt : ℝ) := by exact_mod_cast h1
    exact this.ne'
  rw [show Ideal.ofBits .f32 0x40000000#32 = ((2 : ℝ) : EReal) from ofBits_two]
  exact mean_split _ _ _ _ hn

end Cert.Bridge

end
-- ==== Proof.PreDecode.lean ====
/-
  What the precondition says of the two arguments: every logit is a real number, and every label is
  the "ignore" word `-1` or a column number below 50257.
-/
import proofs.«402159_j15109694947924_3_alg».proof.Pre_finite_inputs
import proofs.«402159_j15109694947924_3_alg».proof.Proof.RowMath
import Idealize.ShloMosaic.Lib.ReduceAll
import Idealize.ShloMosaic.Lib.ValueIdx

noncomputable section

namespace Cert.Pre_finite_inputs.Decode

open Cert.Pre_finite_inputs Idealize.ShloMosaic ManifoldLoss

variable [Facts]

instance : Subsingleton S_.Idx := ⟨fun a b => funext fun d => d.elim0⟩

/-- An extended real whose absolute value is below `+∞` is a real. -/
theorem real_of_abs_lt_top {x : EReal} (h : max x (-x) < ⊤) : ∃ r : ℝ, x = ((r : ℝ) : EReal) := by
  have h1 : x ≠ ⊤ := fun e => by rw [e] at h; simp at h
  have h2 : x ≠ ⊥ := fun e => by rw [e] at h; simp at h
  exact ⟨x.toReal, (EReal.coe_toReal h1 h2).symm⟩

/-- The precondition, decoded. -/
theorem decode (x0 : FVec Ideal S2x2048x50257 .f32) (x1 : IVec S2x2048 32)
    (h : fn (F := Ideal) x0 x1 = fun _ => 1#1) :
    (∀ i, ∃ r : ℝ, x0 i = ((r : ℝ) : EReal)) ∧ (∀ j, LabelOk (x1 j)) := by
  have h0 := congrFun h ValueIdx.ix0
  dsimp only [fn] at h0
  obtain ⟨ha, hb⟩ := IntOp.andi_eq_one.1 h0
  constructor
  · intro i
    have e := Host.reduce_andi_all _ _ _ _ _ ha i
    have e' : Ideal.cmp .olt (max (x0 i) (-(x0 i))) (Ideal.ofBits .f32 0x7F800000#32) = 1#1 := e
    have htop : Ideal.ofBits .f32 0x7F800000#32 = ⊤ := by simp [Ideal.ofBits, Ideal.ieee]
    rw [htop] at e'
    unfold Ideal.cmp at e'
    rw [StableHlo.Predicate.ofBool_eq_one_iff] at e'
    exact real_of_abs_lt_top (by simpa using e')
  · intro j
    have e := Host.reduce_andi_all _ _ _ _ _ hb j
    obtain ⟨e1, e2⟩ := IntOp.andi_eq_one.1 e
    exact labelOk_of_range e1 e2

end Cert.Pre_finite_inputs.Decode

end
-- ==== Proof.lean ====
/-
  The masked cross-entropy + margin + target-logit loss over 4096 rows of 50257 logits: the kernel
  program against its jnp reference, at the extended reals.

  Precondition: every logit is finite, and every label is `-1` ("ignore") or a column number below
  50257 (outside that range the reference's `take_along_axis` wraps or fills, and the kernel's one-hot
  pick reads nothing).

  Per row `x` with label `t` that counts, both programs compute
      a = (1 - x_t)² + softplus(max_{v ≠ t} x_v - x_t)      and      c = log Σ_v e^{x_v} - x_t :
  the kernel picks `x_t` by a masked sum, fills the label's column with a literal named `-∞` under the
  maximum and takes the log-sum-exp unshifted; the reference reads `x_t` by position, fills with `-∞`
  and subtracts the row maximum first, which cancels on reals. The kernel stores `a + ½ c` per row and
  divides the total by the count; the reference adds the mean of `a` to half the mean of `c`:
  equal, since every term is a real and the count is at least one.

  Modules: RowSpec (a row as each program spells it), RealLaws and RowMath (the laws on reals),
  KernelRow and KernelValue (the kernel program's result), RefValue (the reference's stages per row),
  RefFold (the reference's run), Bridge (the two results are equal), PreDecode (the precondition read).
-/
import proofs.«402159_j15109694947924_3_alg».proof.Defs
import proofs.«402159_j15109694947924_3_alg».proof.Proof.Gen.Kernel
import proofs.«402159_j15109694947924_3_alg».proof.Proof.Gen.Kernel.Frame
import proofs.«402159_j15109694947924_3_alg».proof.Proof.Gen.KernelIdeal
import proofs.«402159_j15109694947924_3_alg».proof.Proof.Gen.KernelIdeal.Frame
import proofs.«402159_j15109694947924_3_alg».proof.Proof.Gen.ReferenceIdeal
import proofs.«402159_j15109694947924_3_alg».proof.Proof.Gen.Pre_finite_inputs
import proofs.«402159_j15109694947924_3_alg».proof.Proof.KernelValue
import proofs.«402159_j15109694947924_3_alg».proof.Proof.RefFold
import proofs.«402159_j15109694947924_3_alg».proof.Proof.Bridge
import proofs.«402159_j15109694947924_3_alg».proof.Proof.PreDecode
import Idealize.ShloMosaic.PureOps.IdealRules
import Idealize.ShloMosaic.Adequacy
import Idealize.ShloMosaic.Init

noncomputable section

namespace Cert.Proof

open Idealize.ShloMosaic Idealize.SL.Sem

/-- The kernel program runs and leaves its arguments (the generated frame, at the word level). -/
theorem frame_k : Cert.frame_Kernel := fun m ρ _ => Cert.Kernel.Gen.frame m ρ

/-- The same at the extended reals. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RefFold.run (F := Ideal) m ρ)

/-- The one rewrite of the ideal pass: the kernel's mask fill `-1e30` is named `-∞`. -/
theorem preserves : Cert.preserves_Kernel_KernelIdeal :=
  IdealRules.named_const.statement Cert.KernelIdeal.κ "neg_big" .f32 0xF149F2CA#32 ⊥ rfl

/-- Both programs end at one value: the kernel at `kernelResult` of the arguments, the reference at its last stage, and
    under the precondition these are equal. -/
theorem algebraic : Cert.algebraic_KernelIdeal_ReferenceIdeal := by
  intro m ρ m' ρ' hpre hagree
  refine ⟨fun c => Cert.KernelIdeal.ArrValue.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨(h c).1.trans ?_, (h c).2⟩)
    (Cert.ReferenceIdeal.RefFold.run (F := Ideal) m' ρ')
  rw [(hagree c).1, (hagree c).2]
  obtain ⟨hreal, hlab⟩ := Cert.Pre_finite_inputs.Decode.decode _ _ (hpre c)
  exact (Cert.Bridge.result_eq _ _ hreal hlab).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
